-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg3 : IVec S800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg3 main_v54
  let main_c_21 : IVec S_ 32 := constantI S_ 32 50000#32
  let main_v56 : IVec S800000 32 := broadcastInDim S800000 ![] bcast_S_S800000 main_c_21
  let main_v57 : IVec S800000 1 := cmpi .slt main_arg3 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  main_v60

def fn_part2 {F : FTy → Type} [FloatOps F] (main_arg3 : IVec S800000 32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_v48 main_v49 main_v50

def fn_part1 {F : FTy → Type} [FloatOps F] (main_arg3 : IVec S800000 32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_v33

def fn {F : FTy → Type} [FloatOps F] (main_arg0 : FVec F S50000x128 .f32) (main_arg1 : FVec F S800000x128 .f32) (main_arg2 : FVec F S50000x1 .f32) (main_arg3 : IVec S800000 32) (main_arg4 : IVec S800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg6 main_arg7 main_arg8 main_arg9 main_arg10 main_arg11 main_arg12 main_v13 main_v16
-- ==== Kernel.lean ====
abbrev S50000x128 : Shape := ⟨2, ![50000, 128]⟩
abbrev S800000x128 : Shape := ⟨2, ![800000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S2000x1 : Shape := ⟨2, ![2000, 1]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S4000x128 : Shape := ⟨2, ![4000, 128]⟩

abbrev nBuf : Space → Nat
  | .hbm => 101
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S50000x1, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x128, .f32⟩
  | .hbm, ⟨40, _⟩ => ⟨S800000x128, .i1⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x128, .f32⟩
  | .hbm, ⟨63, _⟩ => ⟨S800000x128, .i1⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S1, .i32⟩
  | .hbm, ⟨76, _⟩ => ⟨S_, .i32⟩
  | .hbm, ⟨77, _⟩ => ⟨S800000x1, .i32⟩
  | .hbm, ⟨78, _⟩ => ⟨S800000x1, .i1⟩
  | .hbm, ⟨79, _⟩ => ⟨S1x1, .i32⟩
  | .hbm, ⟨80, _⟩ => ⟨S800000x1, .i32⟩
  | .hbm, ⟨81, _⟩ => ⟨S800000x1, .i1⟩
  | .hbm, ⟨82, _⟩ => ⟨S800000x1, .i1⟩
  | .hbm, ⟨83, _⟩ => ⟨S_, .i1⟩
  | .hbm, ⟨84, _⟩ => ⟨S800000, .i1⟩
  | .hbm, ⟨85, _⟩ => ⟨S800000x128, .f32⟩
  | .hbm, ⟨86, _⟩ => ⟨S800000x128, .i1⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .f32⟩
  | .local _ .vmem, ⟨37, _⟩ => ⟨S2000x1, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v5 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v6 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v7 : Ref sig .tc := ⟨.hbm, 89, rfl⟩
abbrev main_v8_0 : Ref sig .tc := ⟨.hbm, 90, rfl⟩
abbrev main_v8_1 : Ref sig .tc := ⟨.hbm, 91, rfl⟩
abbrev main_cst : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_cst_0 : Ref sig .tc := ⟨.hbm, 96, rfl⟩
abbrev main_v12 : Ref sig .tc := ⟨.hbm, 97, rfl⟩
abbrev main_v13 : Ref sig .tc := ⟨.hbm, 98, rfl⟩
abbrev main_v14 : Ref sig .tc := ⟨.hbm, 99, rfl⟩
abbrev main_v15 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S800000x128.size a
  hwx1_3 : ∀ i : grid1.Coords, EltTy.bits .f32 = 32 ∨ (Rect.block (s := S800000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S800000x128.size a
  hwx1_4 : ∀ i : grid1.Coords, EltTy.bits .f32 = 32 ∨ (Rect.block (s := S800000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_2) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_3) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S4000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S50000x1, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Take.lean ====
/-
  The kernel program's row gather along an index list, as one function.

  An index list holds one 32-bit signed index per edge. A negative index is first wrapped by adding the number of
  nodes, 50000. The wrapped list, laid out as a column, is what the gather reads its start rows from (the gather
  itself clamps a start row into the table). The kernel program's gather then replaces every row whose wrapped
  index lies outside 0 … 49999 by a constant row: the value of the word 0x7FC00000.
-/
import proofs.«422009_j83476984365560_1_alg».proof.Proof.Gen.KernelIdeal

noncomputable section

namespace Cert.KernelIdeal.Take

open Cert.KernelIdeal Idealize.ShloMosaic
open Cert.KernelIdeal.Facts₀ Cert.KernelIdeal.Facts

variable {F : FTy → Type} [FloatOps F]

/-- The wrapped indices as the column the gather reads: index + 50000 where the index is negative, the index itself
    elsewhere. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32)))
      idx)

/-- Per edge, whether its wrapped index lies in 0 … 49999. -/
def inTable (idx : IVec S800000 32) : IVec S800000 1 :=
  Host.reduce IntOp.andi
    (andi (cmpi .sge (wrapCol idx) (broadcastInDim S800000x1 ![] bcast_S_S800000x1 (constantI S_ 32 0#32)))
      (cmpi .sle (wrapCol idx)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The gathered rows of a table along an index list, a row whose wrapped index is outside the table replaced by the
    constant row. -/
def takeFill (x : FVec F S50000x128 .f32) (idx : IVec S800000 32) : FVec F S800000x128 .f32 :=
  select (broadcastInDim S800000x128 ![0] bcast_S800000_S800000x128_0 (inTable idx))
    (Host.gather gather_S50000x128_S800000x1_S800000x128_1_0_n_n_0_1_1128 x (wrapCol idx))
    (broadcastInDim S800000x128 ![] bcast_S_S800000x128 (constant S_ .f32 0x7FC00000#32))

end Cert.KernelIdeal.Take

end
-- ==== Proof.HostGather.lean ====
/-
  The three gathers between the first and the second region.

  Each is one stretch of whole-array operations: wrap the negative indices, lay the list out as a column, test which
  wrapped indices lie in the table, gather the rows, and replace the rows that fail the test by a constant row. Read
  off the stretch's last buffer, this is the function `takeFill` of the table and the index list as the stretch
  found them.
-/
import proofs.«422009_j83476984365560_1_alg».proof.Proof.Gen.KernelIdeal.Frame
import proofs.«422009_j83476984365560_1_alg».proof.Proof.Take
import Idealize.ShloMosaic.Lib.StableHlo.Run

set_option maxRecDepth 16384

noncomputable section

namespace Cert.KernelIdeal.HostGather

open Cert.KernelIdeal Cert.KernelIdeal.Gen Cert.KernelIdeal.Take
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The rows of the third output along the source list. -/
theorem w3_v5 (c : Dev nD) : W3 m ρ c (Proc.devRef .tc main_v5)
    = takeFill (F := F) (W2 m ρ c (Proc.devRef .tc main_v4_2)) (W2 m ρ c (Proc.devRef .tc main_arg3)) := by
  show StableHlo.after hostOps1 (W2 m ρ c) (Proc.devRef .tc main_v5) = _
  generalize W2 m ρ c = Y
  after_results_simp
  simp only [StableHlo.TRef.toBuf, StableHlo.TRef.ofBuf, cast_eq]
  unfold takeFill inTable wrapCol
  rfl

set_option maxHeartbeats 4000000 in
/-- The rows of the fourth output along the destination list. -/
theorem w4_v6 (c : Dev nD) : W4 m ρ c (Proc.devRef .tc main_v6)
    = takeFill (F := F) (W3 m ρ c (Proc.devRef .tc main_v4_3)) (W3 m ρ c (Proc.devRef .tc main_arg4)) := by
  show StableHlo.after hostOps1_1 (W3 m ρ c) (Proc.devRef .tc main_v6) = _
  generalize W3 m ρ c = Y
  after_results_simp
  simp only [StableHlo.TRef.toBuf, StableHlo.TRef.ofBuf, cast_eq]
  unfold takeFill inTable wrapCol
  rfl

set_option maxHeartbeats 4000000 in
/-- The rows of the second output along the source list. -/
theorem w5_v7 (c : Dev nD) : W5 m ρ c (Proc.devRef .tc main_v7)
    = takeFill (F := F) (W4 m ρ c (Proc.devRef .tc main_v4_1)) (W4 m ρ c (Proc.devRef .tc main_arg3)) := by
  show StableHlo.after hostOps1_2 (W4 m ρ c) (Proc.devRef .tc main_v7) = _
  generalize W4 m ρ c = Y
  after_results_simp
  simp only [StableHlo.TRef.toBuf, StableHlo.TRef.ofBuf, cast_eq]
  unfold takeFill inTable wrapCol
  rfl

end Cert.KernelIdeal.HostGather

end
-- ==== Proof.HostWalk.lean ====
/-
  What each region of the kernel program is entered from, and what the program ends with.

  Between its three regions the program runs stretches of whole-array operations. A buffer a stretch does not write
  keeps its contents across it; a buffer a region does not own keeps its contents across the region. Followed from
  the launch memory:
  * the first region reads the node features, the normalisation column and the four weights as launched, and the
    four biases reshaped to one row each;
  * the second region reads three gathered arrays: rows of the first region's third, fourth and second outputs along
    the source, destination and source index lists;
  * the third region reads the first region's first output, the two scatter-adds of the second region's outputs along
    the destination list, and the normalisation column as launched;
  * the result buffer ends holding what the third region writes.
-/
import proofs.«422009_j83476984365560_1_alg».proof.Proof.Gen.KernelIdeal.Frame
import proofs.«422009_j83476984365560_1_alg».proof.Proof.Take
import proofs.«422009_j83476984365560_1_alg».proof.Proof.HostGather
import Idealize.ShloMosaic.Lib.StableHlo.Run

set_option maxRecDepth 16384

noncomputable section

namespace Cert.KernelIdeal.HostWalk

open Cert.KernelIdeal Cert.KernelIdeal.Gen Cert.KernelIdeal.Take
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of whole-array operations leaves a buffer it does not write as it was. -/
macro "stretch_keeps" : tactic =>
  `(tactic| (refine StableHlo.after_of_forall_not_mem _ _ (List.forall_iff_forall_mem.mp ?_)
             simp only [hostOps0, hostOps1, hostOps1_1, hostOps1_2, hostOps2, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Buffers a stretch or a region leaves alone -/

theorem w3_main_v4_0 (c : Dev nD) : W3 m ρ c (Proc.devRef .tc main_v4_0) = W2 m ρ c (Proc.devRef .tc main_v4_0) := by
  show StableHlo.after hostOps1 (W2 m ρ c) (Proc.devRef .tc main_v4_0) = _
  stretch_keeps
theorem w3_main_v4_1 (c : Dev nD) : W3 m ρ c (Proc.devRef .tc main_v4_1) = W2 m ρ c (Proc.devRef .tc main_v4_1) := by
  show StableHlo.after hostOps1 (W2 m ρ c) (Proc.devRef .tc main_v4_1) = _
  stretch_keeps
theorem w3_main_v4_3 (c : Dev nD) : W3 m ρ c (Proc.devRef .tc main_v4_3) = W2 m ρ c (Proc.devRef .tc main_v4_3) := by
  show StableHlo.after hostOps1 (W2 m ρ c) (Proc.devRef .tc main_v4_3) = _
  stretch_keeps
theorem w3_main_arg2 (c : Dev nD) : W3 m ρ c (Proc.devRef .tc main_arg2) = W2 m ρ c (Proc.devRef .tc main_arg2) := by
  show StableHlo.after hostOps1 (W2 m ρ c) (Proc.devRef .tc main_arg2) = _
  stretch_keeps
theorem w3_main_arg3 (c : Dev nD) : W3 m ρ c (Proc.devRef .tc main_arg3) = W2 m ρ c (Proc.devRef .tc main_arg3) := by
  show StableHlo.after hostOps1 (W2 m ρ c) (Proc.devRef .tc main_arg3) = _
  stretch_keeps
theorem w3_main_arg4 (c : Dev nD) : W3 m ρ c (Proc.devRef .tc main_arg4) = W2 m ρ c (Proc.devRef .tc main_arg4) := by
  show StableHlo.after hostOps1 (W2 m ρ c) (Proc.devRef .tc main_arg4) = _
  stretch_keeps
theorem w4_main_v4_0 (c : Dev nD) : W4 m ρ c (Proc.devRef .tc main_v4_0) = W3 m ρ c (Proc.devRef .tc main_v4_0) := by
  show StableHlo.after hostOps1_1 (W3 m ρ c) (Proc.devRef .tc main_v4_0) = _
  stretch_keeps
theorem w4_main_v4_1 (c : Dev nD) : W4 m ρ c (Proc.devRef .tc main_v4_1) = W3 m ρ c (Proc.devRef .tc main_v4_1) := by
  show StableHlo.after hostOps1_1 (W3 m ρ c) (Proc.devRef .tc main_v4_1) = _
  stretch_keeps
theorem w4_main_arg2 (c : Dev nD) : W4 m ρ c (Proc.devRef .tc main_arg2) = W3 m ρ c (Proc.devRef .tc main_arg2) := by
  show StableHlo.after hostOps1_1 (W3 m ρ c) (Proc.devRef .tc main_arg2) = _
  stretch_keeps
theorem w4_main_arg3 (c : Dev nD) : W4 m ρ c (Proc.devRef .tc main_arg3) = W3 m ρ c (Proc.devRef .tc main_arg3) := by
  show StableHlo.after hostOps1_1 (W3 m ρ c) (Proc.devRef .tc main_arg3) = _
  stretch_keeps
theorem w4_main_arg4 (c : Dev nD) : W4 m ρ c (Proc.devRef .tc main_arg4) = W3 m ρ c (Proc.devRef .tc main_arg4) := by
  show StableHlo.after hostOps1_1 (W3 m ρ c) (Proc.devRef .tc main_arg4) = _
  stretch_keeps
theorem w4_main_v5 (c : Dev nD) : W4 m ρ c (Proc.devRef .tc main_v5) = W3 m ρ c (Proc.devRef .tc main_v5) := by
  show StableHlo.after hostOps1_1 (W3 m ρ c) (Proc.devRef .tc main_v5) = _
  stretch_keeps
theorem w5k_main_v4_0 (c : Dev nD) : W5 m ρ c (Proc.devRef .tc main_v4_0) = W4 m ρ c (Proc.devRef .tc main_v4_0) := by
  show StableHlo.after hostOps1_2 (W4 m ρ c) (Proc.devRef .tc main_v4_0) = _
  stretch_keeps
theorem w5k_main_arg2 (c : Dev nD) : W5 m ρ c (Proc.devRef .tc main_arg2) = W4 m ρ c (Proc.devRef .tc main_arg2) := by
  show StableHlo.after hostOps1_2 (W4 m ρ c) (Proc.devRef .tc main_arg2) = _
  stretch_keeps
theorem w5k_main_arg4 (c : Dev nD) : W5 m ρ c (Proc.devRef .tc main_arg4) = W4 m ρ c (Proc.devRef .tc main_arg4) := by
  show StableHlo.after hostOps1_2 (W4 m ρ c) (Proc.devRef .tc main_arg4) = _
  stretch_keeps
theorem w5k_main_v5 (c : Dev nD) : W5 m ρ c (Proc.devRef .tc main_v5) = W4 m ρ c (Proc.devRef .tc main_v5) := by
  show StableHlo.after hostOps1_2 (W4 m ρ c) (Proc.devRef .tc main_v5) = _
  stretch_keeps
theorem w5k_main_v6 (c : Dev nD) : W5 m ρ c (Proc.devRef .tc main_v6) = W4 m ρ c (Proc.devRef .tc main_v6) := by
  show StableHlo.after hostOps1_2 (W4 m ρ c) (Proc.devRef .tc main_v6) = _
  stretch_keeps
theorem w7k_main_v4_0 (c : Dev nD) : W7 m ρ c (Proc.devRef .tc main_v4_0) = W6 m ρ c (Proc.devRef .tc main_v4_0) := by
  show StableHlo.after hostOps2 (W6 m ρ c) (Proc.devRef .tc main_v4_0) = _
  stretch_keeps
theorem w7k_main_arg2 (c : Dev nD) : W7 m ρ c (Proc.devRef .tc main_arg2) = W6 m ρ c (Proc.devRef .tc main_arg2) := by
  show StableHlo.after hostOps2 (W6 m ρ c) (Proc.devRef .tc main_arg2) = _
  stretch_keeps

/-! ## The launch memory at the first region's entry -/

theorem w1_of_launch (c : Dev nD) (b : Ref sig .tc) (h0 : b ≠ main_v0) (h1 : b ≠ main_v1) (h2 : b ≠ main_v2) (h3 : b ≠ main_v3) :
    W1 m ρ c (Proc.devRef .tc b) = m ((c : Thread nD τ).loc b) := by
  show StableHlo.after hostOps0 (W0 m ρ c) (Proc.devRef .tc b) = _
  refine (StableHlo.after_of_forall_not_mem _ _ (List.forall_iff_forall_mem.mp ?_)).trans rfl
  simp only [hostOps0, List.Forall, StableHlo.reshape_writes, Finset.mem_singleton]
  exact ⟨StableHlo.devRef_ne_of_ne h0, StableHlo.devRef_ne_of_ne h1, StableHlo.devRef_ne_of_ne h2, StableHlo.devRef_ne_of_ne h3⟩

/-- A bias enters the first region reshaped to one row. -/
theorem w1_main_v0 (c : Dev nD) : W1 m ρ c (Proc.devRef .tc main_v0) = shapeCast S1x128 (m ((c : Thread nD τ).loc main_arg6)) Facts₀.shapeCasts_S128_S1x128 := by
  show StableHlo.after hostOps0 (W0 m ρ c) (Proc.devRef .tc main_v0) = _
  after_results_simp
  try rfl
/-- A bias enters the first region reshaped to one row. -/
theorem w1_main_v1 (c : Dev nD) : W1 m ρ c (Proc.devRef .tc main_v1) = shapeCast S1x128 (m ((c : Thread nD τ).loc main_arg8)) Facts₀.shapeCasts_S128_S1x128 := by
  show StableHlo.after hostOps0 (W0 m ρ c) (Proc.devRef .tc main_v1) = _
  after_results_simp
  try rfl
/-- A bias enters the first region reshaped to one row. -/
theorem w1_main_v2 (c : Dev nD) : W1 m ρ c (Proc.devRef .tc main_v2) = shapeCast S1x128 (m ((c : Thread nD τ).loc main_arg10)) Facts₀.shapeCasts_S128_S1x128 := by
  show StableHlo.after hostOps0 (W0 m ρ c) (Proc.devRef .tc main_v2) = _
  after_results_simp
  try rfl
/-- A bias enters the first region reshaped to one row. -/
theorem w1_main_v3 (c : Dev nD) : W1 m ρ c (Proc.devRef .tc main_v3) = shapeCast S1x128 (m ((c : Thread nD τ).loc main_arg12)) Facts₀.shapeCasts_S128_S1x128 := by
  show StableHlo.after hostOps0 (W0 m ρ c) (Proc.devRef .tc main_v3) = _
  after_results_simp
  try rfl

/-! ## After the first region -/

theorem w2_out0 (c : Dev nD) : W2 m ρ c (Proc.devRef .tc main_v4_0) = (dat0 (V1 m ρ) c).arrAt 10 cfg0.N := W2_arr m ρ c 10
theorem w2_out1 (c : Dev nD) : W2 m ρ c (Proc.devRef .tc main_v4_1) = (dat0 (V1 m ρ) c).arrAt 11 cfg0.N := W2_arr m ρ c 11
theorem w2_out2 (c : Dev nD) : W2 m ρ c (Proc.devRef .tc main_v4_2) = (dat0 (V1 m ρ) c).arrAt 12 cfg0.N := W2_arr m ρ c 12
theorem w2_out3 (c : Dev nD) : W2 m ρ c (Proc.devRef .tc main_v4_3) = (dat0 (V1 m ρ) c).arrAt 13 cfg0.N := W2_arr m ρ c 13
theorem w2_arg3 (c : Dev nD) : W2 m ρ c (Proc.devRef .tc main_arg3) = m ((c : Thread nD τ).loc main_arg3) :=
  (W2_of_ne m ρ c main_arg3 (by decide)).trans (w1_of_launch m ρ c main_arg3 (by decide) (by decide) (by decide) (by decide))
theorem w2_arg4 (c : Dev nD) : W2 m ρ c (Proc.devRef .tc main_arg4) = m ((c : Thread nD τ).loc main_arg4) :=
  (W2_of_ne m ρ c main_arg4 (by decide)).trans (w1_of_launch m ρ c main_arg4 (by decide) (by decide) (by decide) (by decide))
/-- The normalisation column is an input window of the first region: the region leaves it as entered. -/
theorem w2_arg2 (c : Dev nD) : W2 m ρ c (Proc.devRef .tc main_arg2) = m ((c : Thread nD τ).loc main_arg2) :=
  ((W2_arr m ρ c 1).trans (((dat0 (V1 m ρ) c).arrAt_in 1 rfl _).trans (A_eq0 (V1 m ρ) c 1))).trans
    (w1_of_launch m ρ c main_arg2 (by decide) (by decide) (by decide) (by decide))

/-! ## What the second region is entered from -/

theorem v5_d (c : Dev nD) : V5 m ρ c main_v5
    = takeFill (F := F) ((dat0 (V1 m ρ) c).arrAt 12 cfg0.N) (m ((c : Thread nD τ).loc main_arg3)) := by
  show W5 m ρ c (Proc.devRef .tc main_v5) = _
  rw [w5k_main_v5, w4_main_v5, HostGather.w3_v5, w2_out2, w2_arg3]
theorem v5_e (c : Dev nD) : V5 m ρ c main_v6
    = takeFill (F := F) ((dat0 (V1 m ρ) c).arrAt 13 cfg0.N) (m ((c : Thread nD τ).loc main_arg4)) := by
  show W5 m ρ c (Proc.devRef .tc main_v6) = _
  rw [w5k_main_v6, HostGather.w4_v6, w3_main_v4_3, w3_main_arg4, w2_out3, w2_arg4]
theorem v5_b (c : Dev nD) : V5 m ρ c main_v7
    = takeFill (F := F) ((dat0 (V1 m ρ) c).arrAt 11 cfg0.N) (m ((c : Thread nD τ).loc main_arg3)) := by
  show W5 m ρ c (Proc.devRef .tc main_v7) = _
  rw [HostGather.w5_v7, w4_main_v4_1, w4_main_arg3, w3_main_v4_1, w3_main_arg3, w2_out1, w2_arg3]

/-! ## After the second region, and the two scatter-adds -/

theorem w6_msg (c : Dev nD) : W6 m ρ c (Proc.devRef .tc main_v8_0) = (dat1 (V5 m ρ) c).arrAt 3 cfg1.N := W6_arr m ρ c 3
theorem w6_gate (c : Dev nD) : W6 m ρ c (Proc.devRef .tc main_v8_1) = (dat1 (V5 m ρ) c).arrAt 4 cfg1.N := W6_arr m ρ c 4
theorem w6_arg4 (c : Dev nD) : W6 m ρ c (Proc.devRef .tc main_arg4) = m ((c : Thread nD τ).loc main_arg4) := by
  rw [W6_of_ne m ρ c main_arg4 (by decide), w5k_main_arg4, w4_main_arg4, w3_main_arg4, w2_arg4]
theorem w6_arg2 (c : Dev nD) : W6 m ρ c (Proc.devRef .tc main_arg2) = m ((c : Thread nD τ).loc main_arg2) := by
  rw [W6_of_ne m ρ c main_arg2 (by decide), w5k_main_arg2, w4_main_arg2, w3_main_arg2, w2_arg2]
theorem w6_out0 (c : Dev nD) : W6 m ρ c (Proc.devRef .tc main_v4_0) = (dat0 (V1 m ρ) c).arrAt 10 cfg0.N := by
  rw [W6_of_ne m ρ c main_v4_0 (by decide), w5k_main_v4_0, w4_main_v4_0, w3_main_v4_0, w2_out0]

/-- The messages summed onto their destination nodes. -/
theorem w7_num (c : Dev nD) : W7 m ρ c (Proc.devRef .tc main_v11)
    = Host.scatterAdd (F := F) scatter_S50000x128_S800000x1_S800000x128_1_0_0_1
        (broadcastInDim S50000x128 ![] Facts₀.bcast_S_S50000x128 (constant S_ .f32 0x00000000#32))
        (broadcastInDim S800000x1 ![0] Facts₀.bcast_S800000_S800000x1_0 (W6 m ρ c (Proc.devRef .tc main_arg4)))
        (W6 m ρ c (Proc.devRef .tc main_v8_0)) := by
  show StableHlo.after hostOps2 (W6 m ρ c) (Proc.devRef .tc main_v11) = _
  generalize W6 m ρ c = Y
  after_results_simp
  try rfl

/-- The gates summed onto their destination nodes. -/
theorem w7_den (c : Dev nD) : W7 m ρ c (Proc.devRef .tc main_v14)
    = Host.scatterAdd (F := F) scatter_S50000x128_S800000x1_S800000x128_1_0_0_1
        (broadcastInDim S50000x128 ![] Facts₀.bcast_S_S50000x128 (constant S_ .f32 0x00000000#32))
        (broadcastInDim S800000x1 ![0] Facts₀.bcast_S800000_S800000x1_0 (W6 m ρ c (Proc.devRef .tc main_arg4)))
        (W6 m ρ c (Proc.devRef .tc main_v8_1)) := by
  show StableHlo.after hostOps2 (W6 m ρ c) (Proc.devRef .tc main_v14) = _
  generalize W6 m ρ c = Y
  after_results_simp
  try rfl

/-! ## What the third region is entered from, and the result -/

theorem v7_a (c : Dev nD) : V7 m ρ c main_v4_0 = (dat0 (V1 m ρ) c).arrAt 10 cfg0.N := by
  show W7 m ρ c (Proc.devRef .tc main_v4_0) = _
  rw [w7k_main_v4_0, w6_out0]
theorem v7_nrm (c : Dev nD) : V7 m ρ c main_arg2 = m ((c : Thread nD τ).loc main_arg2) := by
  show W7 m ρ c (Proc.devRef .tc main_arg2) = _
  rw [w7k_main_arg2, w6_arg2]
theorem v7_num (c : Dev nD) : V7 m ρ c main_v11
    = Host.scatterAdd (F := F) scatter_S50000x128_S800000x1_S800000x128_1_0_0_1
        (broadcastInDim S50000x128 ![] Facts₀.bcast_S_S50000x128 (constant S_ .f32 0x00000000#32))
        (broadcastInDim S800000x1 ![0] Facts₀.bcast_S800000_S800000x1_0 (m ((c : Thread nD τ).loc main_arg4)))
        ((dat1 (V5 m ρ) c).arrAt 3 cfg1.N) := by
  show W7 m ρ c (Proc.devRef .tc main_v11) = _
  rw [w7_num, w6_arg4, w6_msg]
theorem v7_den (c : Dev nD) : V7 m ρ c main_v14
    = Host.scatterAdd (F := F) scatter_S50000x128_S800000x1_S800000x128_1_0_0_1
        (broadcastInDim S50000x128 ![] Facts₀.bcast_S_S50000x128 (constant S_ .f32 0x00000000#32))
        (broadcastInDim S800000x1 ![0] Facts₀.bcast_S800000_S800000x1_0 (m ((c : Thread nD τ).loc main_arg4)))
        ((dat1 (V5 m ρ) c).arrAt 4 cfg1.N) := by
  show W7 m ρ c (Proc.devRef .tc main_v14) = _
  rw [w7_den, w6_arg4, w6_gate]

/-- The result buffer ends holding what the third region's write-backs leave. -/
theorem w8_result (c : Dev nD) : W8 m ρ c (Proc.devRef .tc main_v15) = (dat2 (V7 m ρ) c).arrAt 4 cfg2.N := W8_arr m ρ c 4

/-! ## What the first region is entered from -/

theorem v1_of_launch (c : Dev nD) (b : Ref sig .tc) (h0 : b ≠ main_v0) (h1 : b ≠ main_v1) (h2 : b ≠ main_v2) (h3 : b ≠ main_v3) :
    V1 m ρ c b = m ((c : Thread nD τ).loc b) := w1_of_launch m ρ c b h0 h1 h2 h3

end Cert.KernelIdeal.HostWalk

end
-- ==== Proof.Spec.lean ====
/-
  The gated graph convolution, entry by entry, on the extended reals.

  A node n carries a feature row h(n, ·) and a normalisation factor norm(n). Four affine maps of the
  normalised row, A, B, D, E, have entries  Σ_k (h(n, k) · norm(n)) · W(k, d) + b(d).  An edge e from
  src(e) to dst(e) carries the gate  σ(e, d) = 1 / (1 + exp(−(D(src e, d) + E(dst e, d))))  and the message
  σ(e, d) · B(src e, d).  Messages and gates are summed over the edges that arrive at a node, and the node's
  output is  (A(n, d) + num(n, d) / (den(n, d) + ε)) · norm(n).

  This file holds the three entrywise pieces (the affine map, the gate and message, the final combination)
  as functions of whole arrays; the gathers along src and dst and the two sums over arriving edges are
  whole-array operations shared by both programs and are not restated here.
-/
import Idealize.ShloMosaic.PureOps.Ideal.Laws
import Idealize.ShloMosaic.Lib.ValueIdx

noncomputable section

namespace GatedGraphConv

open Idealize.ShloMosaic Idealize.ShloMosaic.ValueIdx

/-- Node features: 50000 nodes, 128 channels. -/
abbrev NodeFeat : Shape := ⟨2, ![50000, 128]⟩
/-- One factor per node. -/
abbrev NodeCol : Shape := ⟨2, ![50000, 1]⟩
/-- A 128 × 128 weight. -/
abbrev Weight : Shape := ⟨2, ![128, 128]⟩
/-- A bias laid out as one row of 128 channels. -/
abbrev BiasRow : Shape := ⟨2, ![1, 128]⟩
/-- Edge features: 800000 edges, 128 channels. -/
abbrev EdgeFeat : Shape := ⟨2, ![800000, 128]⟩

/-- The row coordinate of an index of a two-axis array. -/
abbrev row {n0 n1 : Nat} (i : (⟨2, ![n0, n1]⟩ : Shape).Idx) : Fin n0 := ⟨(i 0).val, (i 0).isLt⟩
/-- The column coordinate of an index of a two-axis array. -/
abbrev col {n0 n1 : Nat} (i : (⟨2, ![n0, n1]⟩ : Shape).Idx) : Fin n1 := ⟨(i 1).val, (i 1).isLt⟩

/-- The ε added to the denominator: the number the 32-bit word 0x358637BD encodes (both programs carry this word). -/
def eps : EReal := Ideal.ofBits .f32 0x358637BD#32

/-- An affine map of the normalised features: entry (n, d) is Σ_k (h(n, k) · norm(n)) · W(k, d) + b(d). -/
def proj (h : NodeFeat.Idx → EReal) (nrm : NodeCol.Idx → EReal) (W : Weight.Idx → EReal) (b : BiasRow.Idx → EReal) :
    NodeFeat.Idx → EReal :=
  fun i => (∑ k : Fin 128, (h (ix2 (row i) k) * nrm (ix2 (row i) 0)) * W (ix2 k (col i))) + b (ix2 0 (col i))

/-- The gate of an edge: the logistic function of the sum of its two gathered rows. -/
def gate (d e : EdgeFeat.Idx → EReal) : EdgeFeat.Idx → EReal := fun i => Ideal.logistic (d i + e i)

/-- The message of an edge: its gate times the gathered row of B. -/
def message (d e b : EdgeFeat.Idx → EReal) : EdgeFeat.Idx → EReal := fun i => gate d e i * b i

/-- A node's output from its own affine row, the summed messages and the summed gates. -/
def combine (a num den : NodeFeat.Idx → EReal) (nrm : NodeCol.Idx → EReal) : NodeFeat.Idx → EReal :=
  fun i => (a i + Ideal.div (num i) (den i + eps)) * nrm (ix2 (row i) 0)

end GatedGraphConv

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.NodeProjection.lean ====
/-
  The first region, read as mathematics. Its grid has 25 points; at point t the body takes rows 2000·t … 2000·t + 1999
  of the features h and of the column of factors norm, forms hn = h · norm (the factor of a row broadcast along it), and
  four times over, for a weight W taken whole and a bias row b taken whole, stores hn · W + b (b broadcast down the
  rows) into its block of an output array. Entry by entry a block's value is
      Σ_k (h(n, k) · norm(n)) · W(k, d) + b(d)        at the array's row n = 2000·t + the block's row, column d,
  that is, block t of the one whole-array function `GatedGraphConv.proj`. The 25 blocks tile the 50000 rows, so each of
  the four output arrays ends holding `proj` of the region-entry arrays.
-/
import proofs.«422009_j83476984365560_1_alg».proof.Proof.Gen.KernelIdeal.Frame
import proofs.«422009_j83476984365560_1_alg».proof.Proof.Spec
import proofs.«422009_j83476984365560_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProjection

open Cert.KernelIdeal Cert.KernelIdeal.Gen
open Idealize.ShloMosaic Idealize.ShloMosaic.TcCoe Idealize.SL.Sem Idealize.ShloMosaic.ValueIdx
open Idealize.ShloMosaic.Pipeline (Dat Cfg Window)
open GatedGraphConv

-- The buffer contents the region is entered from: any contents (the results below hold for every one).
variable (V : (c : Dev nD) → (b : Ref sig .tc) → Buf (Elt Ideal) ((c : Thread nD τ).loc b))

/-- The zero offsets, however they are spelt. -/
private theorem hz : (![0, 0] : Fin 2 → Nat) = fun _ => 0 := funext fun a => by fin_cases a <;> rfl

/-- The printed contraction record is the plain one: rows by columns. -/
private theorem dot_plain : dot_S2000x128_S128x128_S2000x128_1_0_0_1_n_n = DotDims.plain 2000 128 128 := rfl

/-- A column `[a, 1]` broadcast along the rows to `[a, b]` reads, at `(p, q)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## One block's arithmetic, entry by entry -/

/-- The normalised block: entry (p, k) is the feature times its row's factor (the narrowing of the product to the
    matrix unit's format changes nothing at the ideal values). -/
private theorem normalised_apply (x0 : Vec Ideal S2000x128 .f32) (x1 : Vec Ideal S2000x1 .f32) (p : Fin 2000) (k : Fin 128) :
    k0_pay2 x0 x1 (ix2 p k) = x0 (ix2 p k) * x1 (ix2 p (0 : Fin 1)) := by
  unfold k0_pay2
  show x0 (ix2 p k) * broadcastTo S2000x128 x1 broadcasts_S2000x1_S2000x128 (ix2 p k) = _
  rw [broadcastTo_a1_ab_apply]

/-- One product into the zero accumulator plus the bias row broadcast down the rows:
    entry (p, q) is Σ_k A(p, k) · W(k, q) + b(0, q). -/
private theorem affine_apply (A : FVec Ideal S2000x128 .bf16) (W : Vec Ideal S128x128 .f32) (b : Vec Ideal S1x128 .f32)
    (p : Fin 2000) (q : Fin 128) :
    k0_pay1 A W b (ix2 p q) = (∑ k : Fin 128, A (ix2 p k) * W (ix2 k q)) + b (ix2 (0 : Fin 1) q) := by
  unfold k0_pay1
  show matmul (F := Ideal) dot_S2000x128_S128x128_S2000x128_1_0_0_1_n_n none A (truncf .bf16 W bitsLt_bf16_f32) (constant S2000x128 .f32 0x00000000#32) (ix2 p q)
      + broadcastTo S2000x128 (shapeCast S1x128 b shapeCasts_S1x128_S1x128) broadcasts_S1x128_S2000x128 (ix2 p q) = _
  rw [shapeCast_self, broadcastTo_1b_ab_apply, PlainMatmul.matmul_zero_apply_of_eq _ dot_plain]
  rfl

/-! ## The two row-blocked inputs: a block is 2000 consecutive rows of its array -/

/-- The feature and factor windows sit at block row t, column block 0, at point t (decided over the 25 points). -/
private theorem index_rows : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The feature block of point t is rows 2000·t … 2000·t + 1999 of the feature array. -/
private theorem feature_block (c : Dev nD) (t : Fin cfg0.N) (y : S2000x128.Idx) (i : NodeFeat.Idx)
    (h0 : (i 0).val = t.val * 2000 + (y 0).val) (h1 : (i 1).val = (y 1).val) :
    (iblk0 V c 0 t : Vec Ideal S2000x128 .f32) y = (V c main_arg0 : NodeFeat.Idx → EReal) i := by
  obtain ⟨e0, e1, -⟩ := index_rows t
  unfold iblk0
  show V c main_arg0 (((cfg0.win 0).blk t).view.emb y) = V c main_arg0 i
  congr 1
  funext a; apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The factor block of point t is rows 2000·t … 2000·t + 1999 of the column of factors. -/
private theorem factor_block (c : Dev nD) (t : Fin cfg0.N) (y : S2000x1.Idx) (i : NodeCol.Idx)
    (h0 : (i 0).val = t.val * 2000 + (y 0).val) (h1 : (i 1).val = (y 1).val) :
    (iblk0 V c 1 t : Vec Ideal S2000x1 .f32) y = (V c main_arg2 : NodeCol.Idx → EReal) i := by
  obtain ⟨-, -, e0, e1⟩ := index_rows t
  unfold iblk0
  show V c main_arg2 (((cfg0.win 1).blk t).view.emb y) = V c main_arg2 i
  congr 1
  funext a; apply Fin.ext
  match a with
  | ⟨0, _⟩ => show win0_1.index t (0 : Fin 2) * 2000 + 1 * (y 0).val = (i 0).val; omega
  | ⟨1, _⟩ => show win0_1.index t (1 : Fin 2) * 1 + 1 * (y 1).val = (i 1).val; omega

/-- One block of one product. The block's entry j sits at the array's entry i (row 2000·t + the row of j, the same
    column); there the body's value is the affine map of the normalised features at i, for whatever weight W and
    bias row b the product takes whole: Σ_k (h(row i, k) · norm(row i)) · W(k, col i) + b(col i). -/
private theorem block_entry (c : Dev nD) (t : Fin cfg0.N) (x2 : Vec Ideal S128x128 .f32) (x3 : Vec Ideal S1x128 .f32)
    (W : Weight.Idx → EReal) (b : BiasRow.Idx → EReal) (h2 : x2 = W) (h3 : x3 = b)
    (j : S2000x128.Idx) (i : NodeFeat.Idx) (hi0 : (i 0).val = t.val * 2000 + (j 0).val) (hi1 : (i 1).val = (j 1).val) :
    k0_pay1 (k0_pay2 (iblk0 V c 0 t) (iblk0 V c 1 t)) x2 x3 j = proj (V c main_arg0) (V c main_arg2) W b i := by
  subst h2 h3
  obtain ⟨p, q, rfl⟩ : ∃ (p : Fin 2000) (q : Fin 128), j = ix2 p q := ⟨j 0, j 1, eq_ix2 j⟩
  have hq : col i = q := Fin.ext hi1
  rw [affine_apply]
  unfold proj
  rw [hq]
  congr 1
  refine Finset.sum_congr rfl fun k _ => ?_
  rw [normalised_apply, feature_block V c t (ix2 p k) (ix2 (row i) k) hi0 rfl,
    factor_block V c t (ix2 p (0 : Fin 1)) (ix2 (row i) (0 : Fin 1)) hi0 rfl]

/-- Row r of the array lies in block row r / 2000, and every column in column block 0: the block's range on each axis. -/
private theorem in_block_of_row (i : S50000x128.Idx) (ix : Fin 2 → Nat) (e0 : ix 0 = (i 0).val / 2000) (e1 : ix 1 = 0) :
    ∀ a : Fin 2, ix a * S2000x128.size a ≤ (i a).val ∧ (i a).val < ix a * S2000x128.size a + S2000x128.size a := by
  have hi1 : (i 1).val < 128 := (i 1).isLt
  intro a
  match a with
  | ⟨0, _⟩ => show ix 0 * 2000 ≤ (i 0).val ∧ (i 0).val < ix 0 * 2000 + 2000; rw [e0]; omega
  | ⟨1, _⟩ => show ix 1 * 128 ≤ (i 1).val ∧ (i 1).val < ix 1 * 128 + 128; rw [e1]; omega

/-- The point a row falls to is one of the 25. -/
private theorem point_of_row (i : S50000x128.Idx) : (i 0).val / 2000 < cfg0.N := by
  have hi0 : (i 0).val < 50000 := (i 0).isLt
  rw [show cfg0.N = 25 from N_0]; omega

/-! ## The first product: output window 10, weight window 2, bias window 3 -/

/-- Its weight and bias windows sit at block (0, 0) and its output window at block row t, column block 0, at point t
    (decided over the 25 points). -/
private theorem index_A : ∀ t : Fin cfg0.N,
    win0_2.index t (0 : Fin 2) = 0 ∧ win0_2.index t (1 : Fin 2) = 0
    ∧ win0_3.index t (0 : Fin 2) = 0 ∧ win0_3.index t (1 : Fin 2) = 0
    ∧ win0_10.index t (0 : Fin 2) = t.val ∧ win0_10.index t (1 : Fin 2) = 0 :=
  (by decide +kernel : ∀ t : Fin grid0.N, _)

/-- Its weight window's block is the whole weight at every point. -/
private theorem weight_block_A (c : Dev nD) (t : Fin cfg0.N) :
    (iblk0 V c 2 t : Vec Ideal S128x128 .f32) = (V c main_arg5 : Weight.Idx → EReal) := by
  obtain ⟨e0, e1, -⟩ := index_A t
  funext y
  unfold iblk0
  show V c main_arg5 (((cfg0.win 2).blk t).view.emb y) = V c main_arg5 y
  congr 1
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Its bias window's block is the whole bias row at every point. -/
private theorem bias_block_A (c : Dev nD) (t : Fin cfg0.N) :
    (iblk0 V c 3 t : Vec Ideal S1x128 .f32) = (V c main_v0 : BiasRow.Idx → EReal) := by
  obtain ⟨-, -, e0, e1, -⟩ := index_A t
  funext y
  unfold iblk0
  show V c main_v0 (((cfg0.win 3).blk t).view.emb y) = V c main_v0 y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What point t writes back to output window 10 is block t of the affine map A: the body's one store covers the
    staging buffer, and its value is the product of the normalised block with the weight plus the bias row. -/
private theorem written_back_A (c : Dev nD) (t : Fin cfg0.N) :
    (dat0 (F := Ideal) V c).flushed 10 t
      = ((cfg0.win 10).blk t).view.read (Elt Ideal) (proj (V c main_arg0) (V c main_arg2) (V c main_arg5) (V c main_v0)) := by
  show (cfg0.win 10).cut (grid0.coords t) ((dat0 (F := Ideal) V c).after 10 t) = _
  rw [after0_10]
  unfold out0_10
  rw [View.canon_unit_zero hz]
  simp only [View.ld_unit_zero (S := S2000x128) hz, View.ld_unit_zero (S := S2000x1) hz, View.ld_unit_zero (S := S128x128) hz, View.ld_unit_zero (S := S1x128) hz]
  obtain ⟨-, -, -, -, e0, e1⟩ := index_A t
  funext j
  show k0_pay1 (k0_pay2 (iblk0 V c 0 t) (iblk0 V c 1 t)) (iblk0 V c 2 t) (iblk0 V c 3 t) j
      = proj (V c main_arg0) (V c main_arg2) (V c main_arg5) (V c main_v0) (((cfg0.win 10).blk t).view.emb j)
  refine block_entry V c t _ _ _ _ (weight_block_A V c t) (bias_block_A V c t) j _ ?_ ?_
  · show win0_10.index t (0 : Fin 2) * 2000 + 1 * (j 0).val = t.val * 2000 + (j 0).val; omega
  · show win0_10.index t (1 : Fin 2) * 128 + 1 * (j 1).val = (j 1).val; omega

/-- An entry of the array is in point t's block of output window 10 iff each coordinate is in the block's range. -/
private theorem mem_block_A (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v4_0).slice (win0_10.rect t)).set ↔ _
  rw [View.set_slice_whole, Rect.mem_set_unit]
  exact Iff.rfl

/-- Every entry is in the block of the point its row falls to: the 25 blocks of 2000 rows tile the 50000 rows. -/
private theorem cover_A (i : S50000x128.Idx) :
    ∃ t : Fin cfg0.N, (cfg0.win 10).flush t = true ∧ i ∈ ((cfg0.win 10).blk t).view.set := by
  obtain ⟨-, -, -, -, e0, e1⟩ := index_A ⟨(i 0).val / 2000, point_of_row i⟩
  refine ⟨⟨(i 0).val / 2000, point_of_row i⟩, flush0_10 _, ?_⟩
  rw [mem_block_A]
  exact in_block_of_row i _ e0 e1

/-- After the first region, the array of its first output window is the affine map A of the normalised features. -/
theorem projA (c : Dev nD) : (dat0 (F := Ideal) V c).arrAt 10 cfg0.N = proj (V c main_arg0) (V c main_arg2) (V c main_arg5) (V c main_v0) :=
  (dat0 (F := Ideal) V c).arrAt_eq_of_cover 10 (proj (V c main_arg0) (V c main_arg2) (V c main_arg5) (V c main_v0))
    (fun t _ => written_back_A V c t) cover_A

/-! ## The second product: output window 11, weight window 4, bias window 5 -/

/-- Its weight and bias windows sit at block (0, 0) and its output window at block row t, column block 0, at point t
    (decided over the 25 points). -/
private theorem index_B : ∀ t : Fin cfg0.N,
    win0_4.index t (0 : Fin 2) = 0 ∧ win0_4.index t (1 : Fin 2) = 0
    ∧ win0_5.index t (0 : Fin 2) = 0 ∧ win0_5.index t (1 : Fin 2) = 0
    ∧ win0_11.index t (0 : Fin 2) = t.val ∧ win0_11.index t (1 : Fin 2) = 0 :=
  (by decide +kernel : ∀ t : Fin grid0.N, _)

/-- Its weight window's block is the whole weight at every point. -/
private theorem weight_block_B (c : Dev nD) (t : Fin cfg0.N) :
    (iblk0 V c 4 t : Vec Ideal S128x128 .f32) = (V c main_arg7 : Weight.Idx → EReal) := by
  obtain ⟨e0, e1, -⟩ := index_B t
  funext y
  unfold iblk0
  show V c main_arg7 (((cfg0.win 4).blk t).view.emb y) = V c main_arg7 y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Its bias window's block is the whole bias row at every point. -/
private theorem bias_block_B (c : Dev nD) (t : Fin cfg0.N) :
    (iblk0 V c 5 t : Vec Ideal S1x128 .f32) = (V c main_v1 : BiasRow.Idx → EReal) := by
  obtain ⟨-, -, e0, e1, -⟩ := index_B t
  funext y
  unfold iblk0
  show V c main_v1 (((cfg0.win 5).blk t).view.emb y) = V c main_v1 y
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What point t writes back to output window 11 is block t of the affine map B: the body's one store covers the
    staging buffer, and its value is the product of the normalised block with the weight plus the bias row. -/
private theorem written_back_B (c : Dev nD) (t : Fin cfg0.N) :
    (dat0 (F := Ideal) V c).flushed 11 t
      = ((cfg0.win 11).blk t).view.read (Elt Ideal) (proj (V c main_arg0) (V c main_arg2) (V c main_arg7) (V c main_v1)) := by
  show (cfg0.win 11).cut (grid0.coords t) ((dat0 (F := Ideal) V c).after 11 t) = _
  rw [after0_11]
  unfold out0_11
  rw [View.canon_unit_zero hz]
  simp only [View.ld_unit_zero (S := S2000x128) hz, View.ld_unit_zero (S := S2000x1) hz, View.ld_unit_zero (S := S128x128) hz, View.ld_unit_zero (S := S1x128) hz]
  obtain ⟨-, -, -, -, e0, e1⟩ := index_B t
  funext j
  show k0_pay1 (k0_pay2 (iblk0 V c 0 t) (iblk0 V c 1 t)) (iblk0 V c 4 t) (iblk0 V c 5 t) j
      = proj (V c main_arg0) (V c main_arg2) (V c main_arg7) (V c main_v1) (((cfg0.win 11).blk t).view.emb j)
  refine block_entry V c t _ _ _ _ (weight_block_B V c t) (bias_block_B V c t) j _ ?_ ?_
  · show win0_11.index t (0 : Fin 2) * 2000 + 1 * (j 0).val = t.val * 2000 + (j 0).val; omega
  · show win0_11.index t (1 : Fin 2) * 128 + 1 * (j 1).val = (j 1).val; omega

/-- An entry of the array is in point t's block of output window 11 iff each coordinate is in the block's range. -/
private theorem mem_block_B (t : Fin cfg0.N) (i : S50000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v4_1).slice (win0_11.rect t)).set ↔ _
  rw [View.set_slice_whole, Rect.mem_set_unit]
  exact Iff.rfl

/-- Every entry is in the block of the point its row falls to: the 25 blocks of 2000 rows tile the 50000 rows. -/
private theorem cover_B (i : S50000x128.Idx) :
    ∃ t : Fin cfg0.N, (cfg0.win 11).flush t = true ∧ i ∈ ((cfg0.win 11).blk t).view.set := by
  obtain ⟨-, -, -, -, e0, e1⟩ := index_B ⟨(i 0).val / 2000, point_of_row i⟩
  refine ⟨⟨(i 0).val / 2000, point_of_row i⟩, flush0_11 _, ?_⟩
  rw [mem_block_B]
  exact in_block_of_row i _ e0 e1

/-- The second output window: the affine map B. -/
theorem projB (c : Dev nD) : (dat0 (F := Ideal) V c).arrAt 11 cfg0.N = proj (V c main_arg0) (V c main_arg2) (V c main_arg7) (V c main_v1) :=
  (dat0 (F := Ideal) V c).arrAt_eq_of_cover 11 (proj (V c main_arg0) (V c main_arg2) (V c main_arg7) (V c main_v1))
    (fun t _ => written_back_B V c t) cover_B

/-! ## The third product: output window 12, weight window 6, bias window 7 -/

/-- Its weight and bias windows sit at block (0, 0) and its output window at block row t, column block 0, at point t
    (decided over the 25 points). -/
private theorem index_D : ∀ t : Fin cfg0.N,
    win0_6.index t (0 : Fin 2) = 0 ∧ win0_6.index t (1 : Fin 2) = 0
    ∧ win0_7.index t (0 : Fin 2) = 0 ∧ win0_7.index t (1 : Fin 2) = 0
    ∧ win0_12.index t (0 : Fin 2) = t.val ∧ win0_12.index t (1 : Fin 2) = 0 :=
  (by decide +kernel : ∀ t : Fin grid0.N, _)

/-- Its weight window's block is the whole weight at every point. -/
private theorem weight_block_D (c : Dev nD) (t : Fin cfg0.N) :
    (iblk0 V c 6 t : Vec Ideal S128x128 .f32) = (V c main_arg9 : Weight.Idx → EReal) := by
  obtain ⟨e0, e1, -⟩ := index_D t
  funext y
  unfold iblk0
  show V c main_arg9 (((cfg0.win 6).blk t).view.emb y) = V c main_arg9 y
  congr 1
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Its bias window's block is the whole bias row at every point. -/
private theorem bias_block_D (c : Dev nD) (t : Fin cfg0.N) :
    (iblk0 V c 7 t : Vec Ideal S1x128 .f32) = (V c main_v2 : BiasRow.Idx → EReal) := by
  obtain ⟨-, -, e0, e1, -⟩ := index_D t
  funext y
  unfold iblk0
  show V c main_v2 (((cfg0.win 7).blk t).view.emb y) = V c main_v2 y
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- What point t writes back to output window 12 is block t of the affine map D: the body's one store covers the
    staging buffer, and its value is the product of the normalised block with the weight plus the bias row. -/
private theorem written_back_D (c : Dev nD) (t : Fin cfg0.N) :
    (dat0 (F := Ideal) V c).flushed 12 t
      = ((cfg0.win 12).blk t).view.read (Elt Ideal) (proj (V c main_arg0) (V c main_arg2) (V c main_arg9) (V c main_v2)) := by
  show (cfg0.win 12).cut (grid0.coords t) ((dat0 (F := Ideal) V c).after 12 t) = _
  rw [after0_12]
  unfold out0_12
  rw [View.canon_unit_zero hz]
  simp only [View.ld_unit_zero (S := S2000x128) hz, View.ld_unit_zero (S := S2000x1) hz, View.ld_unit_zero (S := S128x128) hz, View.ld_unit_zero (S := S1x128) hz]
  obtain ⟨-, -, -, -, e0, e1⟩ := index_D t
  funext j
  show k0_pay1 (k0_pay2 (iblk0 V c 0 t) (iblk0 V c 1 t)) (iblk0 V c 6 t) (iblk0 V c 7 t) j
      = proj (V c main_arg0) (V c main_arg2) (V c main_arg9) (V c main_v2) (((cfg0.win 12).blk t).view.emb j)
  refine block_entry V c t _ _ _ _ (weight_block_D V c t) (bias_block_D V c t) j _ ?_ ?_
  · show win0_12.index t (0 : Fin 2) * 2000 + 1 * (j 0).val = t.val * 2000 + (j 0).val; omega
  · show win0_12.index t (1 : Fin 2) * 128 + 1 * (j 1).val = (j 1).val; omega

/-- An entry of the array is in point t's block of output window 12 iff each coordinate is in the block's range. -/
private theorem mem_block_D (t : Fin cfg0.N) (i : S50000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v4_2).slice (win0_12.rect t)).set ↔ _
  rw [View.set_slice_whole, Rect.mem_set_unit]
  exact Iff.rfl

/-- Every entry is in the block of the point its row falls to: the 25 blocks of 2000 rows tile the 50000 rows. -/
private theorem cover_D (i : S50000x128.Idx) :
    ∃ t : Fin cfg0.N, (cfg0.win 12).flush t = true ∧ i ∈ ((cfg0.win 12).blk t).view.set := by
  obtain ⟨-, -, -, -, e0, e1⟩ := index_D ⟨(i 0).val / 2000, point_of_row i⟩
  refine ⟨⟨(i 0).val / 2000, point_of_row i⟩, flush0_12 _, ?_⟩
  rw [mem_block_D]
  exact in_block_of_row i _ e0 e1

/-- The third output window: the affine map D. -/
theorem projD (c : Dev nD) : (dat0 (F := Ideal) V c).arrAt 12 cfg0.N = proj (V c main_arg0) (V c main_arg2) (V c main_arg9) (V c main_v2) :=
  (dat0 (F := Ideal) V c).arrAt_eq_of_cover 12 (proj (V c main_arg0) (V c main_arg2) (V c main_arg9) (V c main_v2))
    (fun t _ => written_back_D V c t) cover_D

/-! ## The fourth product: output window 13, weight window 8, bias window 9 -/

/-- Its weight and bias windows sit at block (0, 0) and its output window at block row t, column block 0, at point t
    (decided over the 25 points). -/
private theorem index_E : ∀ t : Fin cfg0.N,
    win0_8.index t (0 : Fin 2) = 0 ∧ win0_8.index t (1 : Fin 2) = 0
    ∧ win0_9.index t (0 : Fin 2) = 0 ∧ win0_9.index t (1 : Fin 2) = 0
    ∧ win0_13.index t (0 : Fin 2) = t.val ∧ win0_13.index t (1 : Fin 2) = 0 :=
  (by decide +kernel : ∀ t : Fin grid0.N, _)

/-- Its weight window's block is the whole weight at every point. -/
private theorem weight_block_E (c : Dev nD) (t : Fin cfg0.N) :
    (iblk0 V c 8 t : Vec Ideal S128x128 .f32) = (V c main_arg11 : Weight.Idx → EReal) := by
  obtain ⟨e0, e1, -⟩ := index_E t
  funext y
  unfold iblk0
  show V c main_arg11 (((cfg0.win 8).blk t).view.emb y) = V c main_arg11 y
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Its bias window's block is the whole bias row at every point. -/
private theorem bias_block_E (c : Dev nD) (t : Fin cfg0.N) :
    (iblk0 V c 9 t : Vec Ideal S1x128 .f32) = (V c main_v3 : BiasRow.Idx → EReal) := by
  obtain ⟨-, -, e0, e1, -⟩ := index_E t
  funext y
  unfold iblk0
  show V c main_v3 (((cfg0.win 9).blk t).view.emb y) = V c main_v3 y
  congr 1
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- What point t writes back to output window 13 is block t of the affine map E: the body's one store covers the
    staging buffer, and its value is the product of the normalised block with the weight plus the bias row. -/
private theorem written_back_E (c : Dev nD) (t : Fin cfg0.N) :
    (dat0 (F := Ideal) V c).flushed 13 t
      = ((cfg0.win 13).blk t).view.read (Elt Ideal) (proj (V c main_arg0) (V c main_arg2) (V c main_arg11) (V c main_v3)) := by
  show (cfg0.win 13).cut (grid0.coords t) ((dat0 (F := Ideal) V c).after 13 t) = _
  rw [after0_13]
  unfold out0_13
  rw [View.canon_unit_zero hz]
  simp only [View.ld_unit_zero (S := S2000x128) hz, View.ld_unit_zero (S := S2000x1) hz, View.ld_unit_zero (S := S128x128) hz, View.ld_unit_zero (S := S1x128) hz]
  obtain ⟨-, -, -, -, e0, e1⟩ := index_E t
  funext j
  show k0_pay1 (k0_pay2 (iblk0 V c 0 t) (iblk0 V c 1 t)) (iblk0 V c 8 t) (iblk0 V c 9 t) j
      = proj (V c main_arg0) (V c main_arg2) (V c main_arg11) (V c main_v3) (((cfg0.win 13).blk t).view.emb j)
  refine block_entry V c t _ _ _ _ (weight_block_E V c t) (bias_block_E V c t) j _ ?_ ?_
  · show win0_13.index t (0 : Fin 2) * 2000 + 1 * (j 0).val = t.val * 2000 + (j 0).val; omega
  · show win0_13.index t (1 : Fin 2) * 128 + 1 * (j 1).val = (j 1).val; omega

/-- An entry of the array is in point t's block of output window 13 iff each coordinate is in the block's range. -/
private theorem mem_block_E (t : Fin cfg0.N) (i : S50000x128.Idx) :
    i ∈ ((cfg0.win 13).blk t).view.set ↔ ∀ a : Fin 2, win0_13.index t a * S2000x128.size a ≤ (i a).val
      ∧ (i a).val < win0_13.index t a * S2000x128.size a + S2000x128.size a := by
  show i ∈ ((View.whole main_v4_3).slice (win0_13.rect t)).set ↔ _
  rw [View.set_slice_whole, Rect.mem_set_unit]
  exact Iff.rfl

/-- Every entry is in the block of the point its row falls to: the 25 blocks of 2000 rows tile the 50000 rows. -/
private theorem cover_E (i : S50000x128.Idx) :
    ∃ t : Fin cfg0.N, (cfg0.win 13).flush t = true ∧ i ∈ ((cfg0.win 13).blk t).view.set := by
  obtain ⟨-, -, -, -, e0, e1⟩ := index_E ⟨(i 0).val / 2000, point_of_row i⟩
  refine ⟨⟨(i 0).val / 2000, point_of_row i⟩, flush0_13 _, ?_⟩
  rw [mem_block_E]
  exact in_block_of_row i _ e0 e1

/-- The fourth output window: the affine map E. -/
theorem projE (c : Dev nD) : (dat0 (F := Ideal) V c).arrAt 13 cfg0.N = proj (V c main_arg0) (V c main_arg2) (V c main_arg11) (V c main_v3) :=
  (dat0 (F := Ideal) V c).arrAt_eq_of_cover 13 (proj (V c main_arg0) (V c main_arg2) (V c main_arg11) (V c main_v3))
    (fun t _ => written_back_E V c t) cover_E

end Cert.KernelIdeal.NodeProjection

end
-- ==== Proof.EdgeGate.lean ====
import proofs.«422009_j83476984365560_1_alg».proof.Proof.Gen.KernelIdeal.Frame
import proofs.«422009_j83476984365560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeGate

open Cert.KernelIdeal Cert.KernelIdeal.Gen
open Idealize.ShloMosaic Idealize.ShloMosaic.TcCoe Idealize.SL.Sem Idealize.ShloMosaic.ValueIdx
open Idealize.ShloMosaic.Pipeline (Dat Cfg Window)
open GatedGraphConv

-- The buffer contents the region is entered from: any contents (the results below hold for every one).
variable (V : (c : Dev nD) → (b : Ref sig .tc) → Buf (Elt Ideal) ((c : Thread nD τ).loc b))

/-- The zero offsets, spelt as a vector and as a constant function, are one function. -/
private theorem zeroOffsets : (![0, 0] : Fin 2 → Nat) = fun _ => 0 := funext fun a => by fin_cases a <;> rfl

/-- The gate of a block at an index: the logistic function of the sum of the two blocks' elements. -/
private theorem gatePayload_apply (x0 x1 : Vec Ideal S4000x128 .f32) (j : S4000x128.Idx) :
    k1_pay1 x0 x1 j = Ideal.logistic (x0 j + x1 j) := by
  unfold k1_pay1
  simp only [shapeCast_self]
  rfl

/-- The message of a block at an index: the gate times the third block's element. -/
private theorem messagePayload_apply (x0 x1 x2 : Vec Ideal S4000x128 .f32) (j : S4000x128.Idx) :
    k1_pay2 x0 x1 x2 j = Ideal.logistic (x0 j + x1 j) * x2 j := by
  unfold k1_pay2
  simp only [shapeCast_self]
  rw [mulf_apply, gatePayload_apply]

/-- What the body leaves in the gate window's buffer, at an index of the block. -/
private theorem gateBlock_apply (x0 x1 x2 : Vec Ideal S4000x128 .f32) (j : S4000x128.Idx) :
    out1_4 x0 x1 x2 j = Ideal.logistic (x0 j + x1 j) := by
  unfold out1_4
  rw [View.canon_unit_zero zeroOffsets]
  simp only [View.ld_unit_zero (S := S4000x128) zeroOffsets]
  exact gatePayload_apply x0 x1 j

/-- What the body leaves in the message window's buffer, at an index of the block. -/
private theorem messageBlock_apply (x0 x1 x2 : Vec Ideal S4000x128 .f32) (j : S4000x128.Idx) :
    out1_3 x0 x1 x2 j = Ideal.logistic (x0 j + x1 j) * x2 j := by
  unfold out1_3
  rw [View.canon_unit_zero zeroOffsets]
  simp only [View.ld_unit_zero (S := S4000x128) zeroOffsets]
  exact messagePayload_apply x0 x1 x2 j

/-- The printed index maps over the grid: point t's block of every window is block row t, block column 0. -/
private theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The three input blocks at a point, read at an index of the gate window's block at that point, are the
    region-entry arrays at the block's place in the array. -/
private theorem blocks_at_gate (c : Dev nD) (t : Fin cfg1.N) (j : S4000x128.Idx) :
    iblk1 V c 0 t j = V c main_v5 (((cfg1.win 4).blk t).view.emb j)
    ∧ iblk1 V c 1 t j = V c main_v6 (((cfg1.win 4).blk t).view.emb j)
    ∧ iblk1 V c 2 t j = V c main_v7 (((cfg1.win 4).blk t).view.emb j) := by
  obtain ⟨a0, a1, b0, b1, d0, d1, -, -, e0, e1⟩ := blockIndex t
  unfold iblk1
  refine ⟨?_, ?_, ?_⟩
  · show V c main_v5 (((cfg1.win 0).blk t).view.emb j) = V c main_v5 (((cfg1.win 4).blk t).view.emb j)
    refine congrArg (V c main_v5) (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * (j 1).val = win1_4.index t (1 : Fin 2) * 128 + 1 * (j 1).val; omega
  · show V c main_v6 (((cfg1.win 1).blk t).view.emb j) = V c main_v6 (((cfg1.win 4).blk t).view.emb j)
    refine congrArg (V c main_v6) (funext fun a => Fin.ext ?_)
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 128 + 1 * (j 1).val = win1_4.index t (1 : Fin 2) * 128 + 1 * (j 1).val; omega
  · show V c main_v7 (((cfg1.win 2).blk t).view.emb j) = V c main_v7 (((cfg1.win 4).blk t).view.emb j)
    refine congrArg (V c main_v7) (funext fun a => Fin.ext ?_)
    match a with
    | ⟨0, _⟩ => show win1_2.index t (0 : Fin 2) * 4000 + 1 * (j 0).val = win1_4.index t (0 : Fin 2) * 4000 + 1 * (j 0).val; omega
    | ⟨1, _⟩ => show win1_2.index t (1 : Fin 2) * 128 + 1 * (j 1).val = win1_4.index t (1 : Fin 2) * 128 + 1 * (j 1).val; omega

/-- The same at an index of the message window's block. -/
private theorem blocks_at_message (c : Dev nD) (t : Fin cfg1.N) (j : S4000x128.Idx) :
    iblk1 V c 0 t j = V c main_v5 (((cfg1.win 3).blk t).view.emb j)
    ∧ iblk1 V c 1 t j = V c main_v6 (((cfg1.win 3).blk t).view.emb j)
    ∧ iblk1 V c 2 t j = V c main_v7 (((cfg1.win 3).blk t).view.emb j) := by
  obtain ⟨a0, a1, b0, b1, d0, d1, e0, e1, -, -⟩ := blockIndex t
  unfold iblk1
  refine ⟨?_, ?_, ?_⟩
  · show V c main_v5 (((cfg1.win 0).blk t).view.emb j) = V c main_v5 (((cfg1.win 3).blk t).view.emb j)
    refine congrArg (V c main_v5) (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 128 + 1 * (j 1).val = win1_3.index t (1 : Fin 2) * 128 + 1 * (j 1).val; omega
  · show V c main_v6 (((cfg1.win 1).blk t).view.emb j) = V c main_v6 (((cfg1.win 3).blk t).view.emb j)
    refine congrArg (V c main_v6) (funext fun a => Fin.ext ?_)
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 128 + 1 * (j 1).val = win1_3.index t (1 : Fin 2) * 128 + 1 * (j 1).val; omega
  · show V c main_v7 (((cfg1.win 2).blk t).view.emb j) = V c main_v7 (((cfg1.win 3).blk t).view.emb j)
    refine congrArg (V c main_v7) (funext fun a => Fin.ext ?_)
    match a with
    | ⟨0, _⟩ => show win1_2.index t (0 : Fin 2) * 4000 + 1 * (j 0).val = win1_3.index t (0 : Fin 2) * 4000 + 1 * (j 0).val; omega
    | ⟨1, _⟩ => show win1_2.index t (1 : Fin 2) * 128 + 1 * (j 1).val = win1_3.index t (1 : Fin 2) * 128 + 1 * (j 1).val; omega

/-- What a point writes back to the gate array is its block of the gate of the two gathered arrays. -/
private theorem gate_flushed (c : Dev nD) (t : Fin cfg1.N) :
    (dat1 (F := Ideal) V c).flushed 4 t
      = ((cfg1.win 4).blk t).view.read (Elt Ideal) (gate (V c main_v5) (V c main_v6)) := by
  show (cfg1.win 4).cut (grid1.coords t) ((dat1 V c).after 4 t) = _
  rw [after1_4]
  funext j
  obtain ⟨hd, he, -⟩ := blocks_at_gate V c t j
  show out1_4 (iblk1 V c 0 t) (iblk1 V c 1 t) (iblk1 V c 2 t) j
    = gate (V c main_v5) (V c main_v6) (((cfg1.win 4).blk t).view.emb j)
  refine (gateBlock_apply (iblk1 V c 0 t) (iblk1 V c 1 t) (iblk1 V c 2 t) j).trans ?_
  rw [hd, he]
  rfl

/-- What a point writes back to the message array is its block of the message of the three gathered arrays. -/
private theorem message_flushed (c : Dev nD) (t : Fin cfg1.N) :
    (dat1 (F := Ideal) V c).flushed 3 t
      = ((cfg1.win 3).blk t).view.read (Elt Ideal) (message (V c main_v5) (V c main_v6) (V c main_v7)) := by
  show (cfg1.win 3).cut (grid1.coords t) ((dat1 V c).after 3 t) = _
  rw [after1_3]
  funext j
  obtain ⟨hd, he, hb⟩ := blocks_at_message V c t j
  show out1_3 (iblk1 V c 0 t) (iblk1 V c 1 t) (iblk1 V c 2 t) j
    = message (V c main_v5) (V c main_v6) (V c main_v7) (((cfg1.win 3).blk t).view.emb j)
  refine (messageBlock_apply (iblk1 V c 0 t) (iblk1 V c 1 t) (iblk1 V c 2 t) j).trans ?_
  rw [hd, he, hb]
  rfl

/-- An index of the gate array is in a point's block iff each coordinate is in the block's range on its axis. -/
private theorem mem_gateBlock (t : Fin cfg1.N) (i : S800000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v8_1).slice (win1_4.rect t)).set ↔ _
  rw [View.set_slice_whole, Rect.mem_set_unit]
  exact Iff.rfl

/-- The same for the message array. -/
private theorem mem_messageBlock (t : Fin cfg1.N) (i : S800000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v8_0).slice (win1_3.rect t)).set ↔ _
  rw [View.set_slice_whole, Rect.mem_set_unit]
  exact Iff.rfl

/-- The blocks tile the gate array: edge r is in the block of point r / 4000. -/
private theorem gate_cover (i : S800000x128.Idx) :
    ∃ t : Fin cfg1.N, (cfg1.win 4).flush t = true ∧ i ∈ ((cfg1.win 4).blk t).view.set := by
  have hi0 : (i 0).val < 800000 := (i 0).isLt
  have hi1 : (i 1).val < 128 := (i 1).isLt
  have hN : grid1.N = 200 := N_1
  have hlt : (i 0).val / 4000 < cfg1.N := by show (i 0).val / 4000 < grid1.N; omega
  obtain ⟨-, -, -, -, -, -, -, -, e0, e1⟩ := blockIndex ⟨(i 0).val / 4000, hlt⟩
  have e0' : win1_4.index ⟨(i 0).val / 4000, hlt⟩ (0 : Fin 2) = (i 0).val / 4000 := e0
  refine ⟨⟨(i 0).val / 4000, hlt⟩, flush1_4 _, ?_⟩
  rw [mem_gateBlock]
  intro a
  match a with
  | ⟨0, _⟩ =>
    show win1_4.index ⟨(i 0).val / 4000, hlt⟩ (0 : Fin 2) * 4000 ≤ (i 0).val
      ∧ (i 0).val < win1_4.index ⟨(i 0).val / 4000, hlt⟩ (0 : Fin 2) * 4000 + 4000
    omega
  | ⟨1, _⟩ =>
    show win1_4.index ⟨(i 0).val / 4000, hlt⟩ (1 : Fin 2) * 128 ≤ (i 1).val
      ∧ (i 1).val < win1_4.index ⟨(i 0).val / 4000, hlt⟩ (1 : Fin 2) * 128 + 128
    omega

/-- The blocks tile the message array the same way. -/
private theorem message_cover (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : grid1.N = 200 := N_1
  have hlt : (i 0).val / 4000 < cfg1.N := by show (i 0).val / 4000 < grid1.N; omega
  obtain ⟨-, -, -, -, -, -, e0, e1, -, -⟩ := blockIndex ⟨(i 0).val / 4000, hlt⟩
  have e0' : win1_3.index ⟨(i 0).val / 4000, hlt⟩ (0 : Fin 2) = (i 0).val / 4000 := e0
  refine ⟨⟨(i 0).val / 4000, hlt⟩, flush1_3 _, ?_⟩
  rw [mem_messageBlock]
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    omega
  | ⟨1, _⟩ =>
    show win1_3.index ⟨(i 0).val / 4000, hlt⟩ (1 : Fin 2) * 128 ≤ (i 1).val
      ∧ (i 1).val < win1_3.index ⟨(i 0).val / 4000, hlt⟩ (1 : Fin 2) * 128 + 128
    omega

/-- After the second region, the array of its first output window holds every edge's message. -/
theorem gateMsg (c : Dev nD) : (dat1 (F := Ideal) V c).arrAt 3 cfg1.N = message (V c main_v5) (V c main_v6) (V c main_v7) :=
  (dat1 V c).arrAt_eq_of_cover 3 (message (V c main_v5) (V c main_v6) (V c main_v7))
    (fun t _ => message_flushed V c t) message_cover
/-- The second output window holds every edge's gate. -/
theorem gateSig (c : Dev nD) : (dat1 (F := Ideal) V c).arrAt 4 cfg1.N = gate (V c main_v5) (V c main_v6) :=
  (dat1 V c).arrAt_eq_of_cover 4 (gate (V c main_v5) (V c main_v6))
    (fun t _ => gate_flushed V c t) gate_cover

end Cert.KernelIdeal.EdgeGate

end
-- ==== Proof.NodeCombine.lean ====
import proofs.«422009_j83476984365560_1_alg».proof.Proof.Gen.KernelIdeal.Frame
import proofs.«422009_j83476984365560_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeCombine

open Cert.KernelIdeal Cert.KernelIdeal.Gen
open Idealize.ShloMosaic Idealize.ShloMosaic.TcCoe Idealize.SL.Sem Idealize.ShloMosaic.ValueIdx
open Idealize.ShloMosaic.Pipeline (Dat Cfg Window)
open GatedGraphConv

-- The buffer contents the region is entered from: any contents (the results below hold for every one).
variable (V : (c : Dev nD) → (b : Ref sig .tc) → Buf (Elt Ideal) ((c : Thread nD τ).loc b))

/-! ## The block a point stores, index by index -/

/-- The zero offsets of an access to a whole block, as the constant function. -/
private theorem zero_offsets : (![0, 0] : Fin 2 → Nat) = fun _ => 0 := funext fun a => by fin_cases a <;> rfl

/-- The value stored at an index of the block: the node's own row plus its summed messages over its summed gates
    (with ε added), times the norm of the index's row. -/
private theorem stored_apply (x0 x1 x2 : Vec Ideal S2000x128 .f32) (x3 : Vec Ideal S2000x1 .f32) (j : S2000x128.Idx) :
    k2_pay1 x0 x1 x2 x3 j = (x0 j + Ideal.div (x1 j) (x2 j + eps)) * x3 (ix2 (row j) 0) := by
  unfold k2_pay1
  simp only [shapeCast_self]
  rw [mulf_apply, addf_apply, divf_apply, addf_apply, broadcast_apply]
  rw [broadcastTo_apply x3 broadcasts_S2000x1_S2000x128 j (ix2 (row j) 0) (fun a => by
    match a with
    | ⟨0, _⟩ => rfl
    | ⟨1, _⟩ => rfl)]
  rfl

/-! ## Where a point's blocks sit in their arrays -/

/-- The five windows move together: at grid point `t` each is on block `(t, 0)` of its array. -/
private theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The block of the node's own rows at point `t` reads its array where the output's block at `t` sits. -/
private theorem own_block (c : Dev nD) (t : Fin cfg2.N) (y : S2000x128.Idx) :
    (iblk2 V c 0 t : Vec Ideal S2000x128 .f32) y = V c main_v4_0 (((cfg2.win 4).blk t).view.emb y) := by
  obtain ⟨a0, a1, -, -, -, -, -, -, o0, o1⟩ := block_index t
  show V c main_v4_0 (((cfg2.win 0).blk t).view.emb y) = V c main_v4_0 (((cfg2.win 4).blk t).view.emb y)
  refine congrArg _ (funext fun a => Fin.ext ?_)
  match a with
  | ⟨0, _⟩ => show win2_0.index t (0 : Fin 2) * 2000 + 1 * (y 0).val = win2_4.index t (0 : Fin 2) * 2000 + 1 * (y 0).val; omega
  | ⟨1, _⟩ => show win2_0.index t (1 : Fin 2) * 128 + 1 * (y 1).val = win2_4.index t (1 : Fin 2) * 128 + 1 * (y 1).val; omega

/-- The block of summed messages at point `t` reads its array where the output's block at `t` sits. -/
private theorem messages_block (c : Dev nD) (t : Fin cfg2.N) (y : S2000x128.Idx) :
    (iblk2 V c 1 t : Vec Ideal S2000x128 .f32) y = V c main_v11 (((cfg2.win 4).blk t).view.emb y) := by
  obtain ⟨-, -, a0, a1, -, -, -, -, o0, o1⟩ := block_index t
  show V c main_v11 (((cfg2.win 1).blk t).view.emb y) = V c main_v11 (((cfg2.win 4).blk t).view.emb y)
  refine congrArg _ (funext fun a => Fin.ext ?_)
  match a with
  | ⟨0, _⟩ => show win2_1.index t (0 : Fin 2) * 2000 + 1 * (y 0).val = win2_4.index t (0 : Fin 2) * 2000 + 1 * (y 0).val; omega
  | ⟨1, _⟩ => show win2_1.index t (1 : Fin 2) * 128 + 1 * (y 1).val = win2_4.index t (1 : Fin 2) * 128 + 1 * (y 1).val; omega

/-- The block of summed gates at point `t` reads its array where the output's block at `t` sits. -/
private theorem gates_block (c : Dev nD) (t : Fin cfg2.N) (y : S2000x128.Idx) :
    (iblk2 V c 2 t : Vec Ideal S2000x128 .f32) y = V c main_v14 (((cfg2.win 4).blk t).view.emb y) := by
  obtain ⟨-, -, -, -, a0, a1, -, -, o0, o1⟩ := block_index t
  show V c main_v14 (((cfg2.win 2).blk t).view.emb y) = V c main_v14 (((cfg2.win 4).blk t).view.emb y)
  refine congrArg _ (funext fun a => Fin.ext ?_)
  match a with
  | ⟨0, _⟩ => show win2_2.index t (0 : Fin 2) * 2000 + 1 * (y 0).val = win2_4.index t (0 : Fin 2) * 2000 + 1 * (y 0).val; omega
  | ⟨1, _⟩ => show win2_2.index t (1 : Fin 2) * 128 + 1 * (y 1).val = win2_4.index t (1 : Fin 2) * 128 + 1 * (y 1).val; omega

/-- The norm column's block at point `t`, at the row of a block index, reads the norm of that index's row in the array. -/
private theorem norm_block (c : Dev nD) (t : Fin cfg2.N) (y : S2000x128.Idx) :
    (iblk2 V c 3 t : Vec Ideal S2000x1 .f32) (ix2 (row y) 0)
      = V c main_arg2 (ix2 (row (n0 := 50000) (n1 := 128) (((cfg2.win 4).blk t).view.emb y)) 0) := by
  obtain ⟨-, -, -, -, -, -, a0, a1, o0, o1⟩ := block_index t
  show V c main_arg2 (((cfg2.win 3).blk t).view.emb (ix2 (row y) 0))
    = V c main_arg2 (ix2 (row (n0 := 50000) (n1 := 128) (((cfg2.win 4).blk t).view.emb y)) 0)
  refine congrArg _ (funext fun a => Fin.ext ?_)
  match a with
  | ⟨0, _⟩ => show win2_3.index t (0 : Fin 2) * 2000 + 1 * (y 0).val = win2_4.index t (0 : Fin 2) * 2000 + 1 * (y 0).val; omega
  | ⟨1, _⟩ => show win2_3.index t (1 : Fin 2) * 1 + 1 * 0 = 0; omega

/-! ## From the blocks to the array -/

/-- What point `t` writes back is its block of the combination of the region-entry arrays. -/
private theorem written_back (c : Dev nD) (t : Fin cfg2.N) :
    (dat2 (F := Ideal) V c).flushed 4 t
      = ((cfg2.win 4).blk t).view.read (Elt Ideal) (combine (V c main_v4_0) (V c main_v11) (V c main_v14) (V c main_arg2)) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S2000x1) zero_offsets]
  funext j
  show k2_pay1 (iblk2 V c 0 t) (iblk2 V c 1 t) (iblk2 V c 2 t) (iblk2 V c 3 t) j
    = combine (V c main_v4_0) (V c main_v11) (V c main_v14) (V c main_arg2) (((cfg2.win 4).blk t).view.emb j)
  rw [stored_apply, own_block, messages_block, gates_block, norm_block]
  rfl

/-- An index of the array is in point `t`'s block iff each coordinate is in the block's range on its axis. -/
private theorem mem_block (t : Fin cfg2.N) (i : S50000x128.Idx) :
    i ∈ ((cfg2.win 4).blk t).view.set
      ↔ ∀ a : Fin 2, win2_4.index t a * S2000x128.size a ≤ (i a).val ∧ (i a).val < win2_4.index t a * S2000x128.size a + S2000x128.size a := by
  show i ∈ ((View.whole main_v15).slice (win2_4.rect t)).set ↔ _
  rw [View.set_slice_whole, Rect.mem_set_unit]
  exact Iff.rfl

/-- The 25 blocks of 2000 rows tile the 50000 rows: row `r` is in the block of point `r / 2000`. -/
private theorem covered (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := by decide +kernel
  have ht : (i 0).val / 2000 < cfg2.N := by rw [hN]; omega
  have e0 : win2_4.index ⟨(i 0).val / 2000, ht⟩ (0 : Fin 2) = (i 0).val / 2000 := (block_index ⟨(i 0).val / 2000, ht⟩).2.2.2.2.2.2.2.2.1
  have e1 : win2_4.index ⟨(i 0).val / 2000, ht⟩ (1 : Fin 2) = 0 := (block_index ⟨(i 0).val / 2000, ht⟩).2.2.2.2.2.2.2.2.2
  refine ⟨⟨(i 0).val / 2000, ht⟩, flush2_4 _, ?_⟩
  rw [mem_block]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e0]; omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e1]; omega

/-- After the third region, the array of its output window is the combination of each node's own affine row with its summed messages and gates. -/
theorem comb (c : Dev nD) : (dat2 (F := Ideal) V c).arrAt 4 cfg2.N = combine (V c main_v4_0) (V c main_v11) (V c main_v14) (V c main_arg2) :=
  (dat2 (F := Ideal) V c).arrAt_eq_of_cover 4 _ (fun t _ => written_back V c t) covered

end Cert.KernelIdeal.NodeCombine

end
-- ==== Proof.IndexRange.lean ====
/-
  What the index ranges give.

  * The precondition's last conjunct says every source index is a node number, 0 ≤ src(e) < 50000.
  * For an edge whose index is a node number the wrapped index is the index itself and lies in the table, so the
    kernel program's gather returns the gathered row, not the constant row.
  * A scatter-add onto the nodes drops every update whose destination is not a node number; so two update arrays that
    agree on the edges whose destination IS a node number scatter-add to the same array.
-/
import proofs.«422009_j83476984365560_1_alg».proof.Proof.Take
import proofs.«422009_j83476984365560_1_alg».proof.Proof.Spec
import proofs.«422009_j83476984365560_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Ideal.Laws

noncomputable section

namespace Cert.KernelIdeal.IndexRange

open Cert.KernelIdeal Cert.KernelIdeal.Take Idealize.ShloMosaic Idealize.ShloMosaic.ValueIdx
open Cert.KernelIdeal.Facts₀ Cert.KernelIdeal.Facts
open GatedGraphConv (row)

variable {F : FTy → Type} [FloatOps F]

/-! ### The precondition's last conjunct -/

/-- The last part of the precondition ends in "and (all of (0 ≤ src and src < 50000))": when it is 1, the right operand
    of the final "and" is 1, so every entry of the reduced array is 1, so both compares hold at every edge. -/
private theorem part3_range (a3 : IVec Cert.Pre_finite_inputs.S800000 32) (v48 : IVec Cert.Pre_finite_inputs.S_ 1)
    (v49 v50 : FVec F Cert.Pre_finite_inputs.S128 .f32)
    (h : Cert.Pre_finite_inputs.fn_part3 (F := F) a3 v48 v49 v50 ix0 = 1#1) (e : Fin 800000) :
    0 ≤ (a3 (ix1 e)).toInt ∧ (a3 (ix1 e)).toInt < 50000 := by
  unfold Cert.Pre_finite_inputs.fn_part3 at h
  dsimp only at h
  have h59 := (IntOp.andi_eq_one.1 h).2
  -- the scalar shape has one index
  haveI : Subsingleton Cert.Pre_finite_inputs.S_.Idx := ⟨fun a b => funext fun d => d.elim0⟩
  have h58 := Host.reduce_andi_all _ _ _ _ _ h59 (ix1 e)
  obtain ⟨hge, hlt⟩ := IntOp.andi_eq_one.1 h58
  have hge' : IntOp.cmpi .sge (a3 (ix1 e)) 0#32 = 1#1 := hge
  have hlt' : IntOp.cmpi .slt (a3 (ix1 e)) 50000#32 = 1#1 := hlt
  have z : (0#32 : BitVec 32).toInt = 0 := by decide
  have n : (50000#32 : BitVec 32).toInt = 50000 := by decide
  have := IntOp.cmpi_sge.1 hge'
  have := IntOp.cmpi_slt.1 hlt'
  omega

/-- The precondition's last conjunct, decoded: every source index is a node number. -/
theorem src_range (a0 : FVec F Cert.Pre_finite_inputs.S50000x128 .f32) (a1 : FVec F Cert.Pre_finite_inputs.S800000x128 .f32)
    (a2 : FVec F Cert.Pre_finite_inputs.S50000x1 .f32) (a3 a4 : IVec Cert.Pre_finite_inputs.S800000 32)
    (a5 : FVec F Cert.Pre_finite_inputs.S128x128 .f32) (a6 : FVec F Cert.Pre_finite_inputs.S128 .f32)
    (a7 : FVec F Cert.Pre_finite_inputs.S128x128 .f32) (a8 : FVec F Cert.Pre_finite_inputs.S128 .f32)
    (a9 : FVec F Cert.Pre_finite_inputs.S128x128 .f32) (a10 : FVec F Cert.Pre_finite_inputs.S128 .f32)
    (a11 : FVec F Cert.Pre_finite_inputs.S128x128 .f32) (a12 : FVec F Cert.Pre_finite_inputs.S128 .f32)
    (h : Cert.Pre_finite_inputs.fn (F := F) a0 a1 a2 a3 a4 a5 a6 a7 a8 a9 a10 a11 a12 = fun _ => 1#1) :
    ∀ e : Fin 800000, 0 ≤ (a3 (ix1 e)).toInt ∧ (a3 (ix1 e)).toInt < 50000 := by
  intro e
  have h0 := congrFun h ix0
  unfold Cert.Pre_finite_inputs.fn Cert.Pre_finite_inputs.fn_part1 Cert.Pre_finite_inputs.fn_part2 at h0
  exact part3_range a3 _ _ _ h0 e

/-! ### Words -/

private theorem toInt_zero32 : (0#32 : BitVec 32).toInt = 0 := by decide
private theorem toInt_top32 : (49999#32 : BitVec 32).toInt = 49999 := by decide

/-- A word that reads nonnegative is kept by the wrap. -/
private theorem word_keep (i : BitVec 32) (h0 : 0 ≤ i.toInt) :
    Scalar.select (IntOp.cmpi .slt i 0#32) (IntOp.addi i 50000#32) i = i := by
  unfold Scalar.select
  rw [if_neg]
  intro hc
  have := IntOp.cmpi_slt.1 hc
  rw [toInt_zero32] at this
  omega

/-- A word in 0 … 49999 passes both range tests. -/
private theorem word_in (i : BitVec 32) (h0 : 0 ≤ i.toInt) (h1 : i.toInt < 50000) :
    IntOp.andi (IntOp.cmpi .sge i 0#32) (IntOp.cmpi .sle i 49999#32) = 1#1 :=
  IntOp.andi_eq_one.2 ⟨IntOp.cmpi_sge.2 (by rw [toInt_zero32]; exact h0), IntOp.cmpi_sle.2 (by rw [toInt_top32]; omega)⟩

/-- A fold by "and" from 1 over entries that are all 1 is 1. -/
private theorem fold_andi_one {ι : Type} (S : Finset ι) (x : ι → BitVec 1) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih (fun i hi => hx i (Finset.mem_cons_of_mem hi))]
    rfl

/-! ### The wrapped column and the range test at an index -/

/-- The wrapped column at an entry of row e is the wrap of the e-th index. -/
private theorem wrapCol_apply (idx : IVec S800000 32) (i : S800000x1.Idx) :
    wrapCol idx i = Scalar.select (IntOp.cmpi .slt (idx (ix1 (row i))) 0#32) (IntOp.addi (idx (ix1 (row i))) 50000#32)
      (idx (ix1 (row i))) := by
  unfold wrapCol
  exact broadcastInDim_apply _ bcast_S800000_S800000x1_0 _ i (ix1 (row i)) (fun a => match a with
    | ⟨0, _⟩ => by show (i 0).val = if (800000 : Nat) = 1 then 0 else (i 0).val; rw [if_neg (by decide)])

/-- Where the index reads nonnegative the wrapped column holds the index itself. -/
private theorem wrapCol_of_nonneg (idx : IVec S800000 32) (i : S800000x1.Idx) (h0 : 0 ≤ (idx (ix1 (row i))).toInt) :
    wrapCol idx i = idx (ix1 (row i)) := by
  rw [wrapCol_apply, word_keep _ h0]

/-- An edge whose index is a node number passes the range test: the reduction runs over the one entry of the edge's
    row of the column, and that entry is 1. -/
private theorem inTable_of_range (idx : IVec S800000 32) (e : Fin 800000)
    (h : 0 ≤ (idx (ix1 e)).toInt ∧ (idx (ix1 e)).toInt < 50000) : inTable idx (ix1 e) = 1#1 := by
  unfold inTable
  rw [Host.reduce_eq_fold]
  refine fold_andi_one _ _ (fun i hi => ?_)
  have hd : reducesTo_S800000x1_S800000_d1.drop i = ix1 e := (Finset.mem_filter.1 hi).2
  have hv : (reducesTo_S800000x1_S800000_d1.drop i 0 : Nat) = i 0 := Shape.ReducesTo.drop_apply_val _ i 0
  have hrow : row i = e := Fin.ext (by show (i 0).val = e.val; rw [← hv, hd])
  show IntOp.andi (IntOp.cmpi .sge (wrapCol idx i) 0#32) (IntOp.cmpi .sle (wrapCol idx i) 49999#32) = 1#1
  rw [wrapCol_of_nonneg idx i (by rw [hrow]; exact h.1), hrow]
  exact word_in _ h.1 h.2

/-- At an edge whose index is a node number the kernel program's gather returns the gathered row. -/
theorem takeFill_row (x : FVec F S50000x128 .f32) (idx : IVec S800000 32) (j : S800000x128.Idx)
    (h : 0 ≤ (idx (ix1 (row j))).toInt ∧ (idx (ix1 (row j))).toInt < 50000) :
    takeFill x idx j = Host.gather gather_S50000x128_S800000x1_S800000x128_1_0_n_n_0_1_1128 x (wrapCol idx) j := by
  have hb : broadcastInDim S800000x128 ![0] bcast_S800000_S800000x128_0 (inTable idx) j = inTable idx (ix1 (row j)) :=
    broadcastInDim_apply _ bcast_S800000_S800000x128_0 _ j (ix1 (row j)) (fun a => match a with
      | ⟨0, _⟩ => by show (j 0).val = if (800000 : Nat) = 1 then 0 else (j 0).val; rw [if_neg (by decide)])
  unfold takeFill
  rw [select_apply, hb, inTable_of_range idx (row j) h, select_one]

/-- When every index is a node number the kernel program's gather is the plain gather. -/
theorem takeFill_all (x : FVec F S50000x128 .f32) (idx : IVec S800000 32)
    (h : ∀ e : Fin 800000, 0 ≤ (idx (ix1 e)).toInt ∧ (idx (ix1 e)).toInt < 50000) :
    takeFill x idx = Host.gather gather_S50000x128_S800000x1_S800000x128_1_0_n_n_0_1_1128 x (wrapCol idx) :=
  funext fun j => takeFill_row x idx j (h (row j))

/-! ### Where an update lands -/

/-- The start row of an edge's update window is the edge's destination index, read signed. -/
private theorem start_row (dst : IVec S800000 32) (j : S800000x128.Idx) :
    scatter_S50000x128_S800000x1_S800000x128_1_0_0_1.start j
        (broadcastInDim S800000x1 ![0] bcast_S800000_S800000x1_0 dst) 0
      = (dst (ix1 (row j))).toInt := by
  unfold ScatterDims.start
  rw [dif_pos (show (0 : Fin S50000x128.rank) ∈ scatter_S50000x128_S800000x1_S800000x128_1_0_0_1.scatterDimsToOperandDims by decide)]
  congr 1
  refine broadcastInDim_apply _ bcast_S800000_S800000x1_0 dst _ (ix1 (row j)) (fun a => ?_)
  obtain rfl : a = 0 := Subsingleton.elim _ _
  show (j 0).val = if (800000 : Nat) = 1 then 0 else
    (scatter_S50000x128_S800000x1_S800000x128_1_0_0_1.siIdx j _ (0 : Fin S800000x1.rank)).val
  rw [if_neg (by decide)]
  unfold ScatterDims.siIdx
  rw [dif_neg (show ¬((0 : Fin S800000x1.rank).val = scatter_S50000x128_S800000x1_S800000x128_1_0_0_1.indexVectorDim) by decide)]
  rfl

/-- The row axis is not a window axis: the window offset on it is 0. -/
private theorem window_row (j : S800000x128.Idx) :
    scatter_S50000x128_S800000x1_S800000x128_1_0_0_1.window j 0 = 0 := by
  unfold ScatterDims.window
  rw [dif_neg (show ¬(0 : Fin S50000x128.rank) ∈ scatter_S50000x128_S800000x1_S800000x128_1_0_0_1.sKept by decide)]

/-- An update that lands in the table has a destination index that is a node number. -/
private theorem range_of_lands (dst : IVec S800000 32) (j : S800000x128.Idx) (i : S50000x128.Idx)
    (hr : scatter_S50000x128_S800000x1_S800000x128_1_0_0_1.resultIdx? j
        (broadcastInDim S800000x1 ![0] bcast_S800000_S800000x1_0 dst) = some i) :
    0 ≤ (dst (ix1 (row j))).toInt ∧ (dst (ix1 (row j))).toInt < 50000 := by
  unfold ScatterDims.resultIdx? at hr
  split at hr
  · next hall =>
    have h0 := hall 0
    rw [start_row, window_row] at h0
    have hs : S50000x128.size 0 = 50000 := rfl
    rw [hs] at h0
    omega
  · cases hr

/-- Update arrays that agree on every edge whose destination is a node number scatter-add to the same array. -/
theorem scatterAdd_congr (x : FVec Ideal S50000x128 .f32) (dst : IVec S800000 32) (u u' : FVec Ideal S800000x128 .f32)
    (h : ∀ j : S800000x128.Idx, 0 ≤ (dst (ix1 (row j))).toInt → (dst (ix1 (row j))).toInt < 50000 → u j = u' j) :
    Host.scatterAdd scatter_S50000x128_S800000x1_S800000x128_1_0_0_1 x (broadcastInDim S800000x1 ![0] bcast_S800000_S800000x1_0 dst) u
      = Host.scatterAdd scatter_S50000x128_S800000x1_S800000x128_1_0_0_1 x (broadcastInDim S800000x1 ![0] bcast_S800000_S800000x1_0 dst) u' := by
  unfold Host.scatterAdd
  rw [Ideal.hostScatterAdd_def, Ideal.hostScatterAdd_def]
  funext i
  unfold Ideal.hostScatterAdd
  refine congrArg (fun t => x i + t) (Finset.sum_congr rfl (fun j hj => ?_))
  obtain ⟨h0, h1⟩ := range_of_lands dst j i (Finset.mem_filter.1 hj).2
  exact h j h0 h1

end Cert.KernelIdeal.IndexRange

end
-- ==== Proof.ReferenceStages.lean ====
/-
  The reference program's stages, written through the entrywise pieces of the gated graph convolution.

  The reference computes the four affine maps by a host matrix product and two broadcasts of the bias, the gate by
  negate, exponential, add one and divide one by it, and the output by a divide, two adds and a multiply by the
  broadcast normalisation column. Entry by entry these are the affine map, the gate and message, and the final
  combination of Proof/Spec.lean; the gathers and the two scatter-adds stay as the whole-array operations they are.
-/
import proofs.«422009_j83476984365560_1_alg».proof.Proof.Gen.ReferenceIdeal.Read
import proofs.«422009_j83476984365560_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Read Idealize.ShloMosaic Idealize.ShloMosaic.ValueIdx
open GatedGraphConv

variable (x0 : (⟨S50000x128, .f32⟩ : BufTy).Contents (Elt Ideal)) (x2 : (⟨S50000x1, .f32⟩ : BufTy).Contents (Elt Ideal))
  (x3 x4 : (⟨S800000, .i32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The 32-bit word 0x3F800000 encodes the number one. -/
private theorem ofBits_one_f32 : Ideal.ofBits .f32 0x3F800000#32 = 1 := by
  simp [Ideal.ofBits, Ideal.ieee, -EReal.coe_mul]; norm_num

/-- The left operand's index in the matrix product, then the index its broadcast factor reads, and the right
    operand's index, the bias row's index: each is the pair of coordinates the affine map names. -/
private theorem lidx_eq (i : S50000x128.Idx) (k : Fin 128) : lidx_main_v2 i k = ix2 (row i) k :=
  funext fun a => by match a with | ⟨0, _⟩ => rfl | ⟨1, _⟩ => rfl
private theorem nidx_eq (i : S50000x128.Idx) (k : Fin 128) : idx_main_v0 (ix2 (row i) k) = ix2 (row i) 0 :=
  funext fun a => by match a with | ⟨0, _⟩ => rfl | ⟨1, _⟩ => rfl
private theorem ridx_eq (i : S50000x128.Idx) (k : Fin 128) : ridx_main_v2 i k = ix2 k (col i) :=
  funext fun a => by match a with | ⟨0, _⟩ => rfl | ⟨1, _⟩ => rfl
private theorem bidx_eq (i : S50000x128.Idx) : idx_main_v4 i = ix2 0 (col i) :=
  funext fun a => by match a with | ⟨0, _⟩ => rfl | ⟨1, _⟩ => rfl
private theorem cidx_eq (i : S50000x128.Idx) : idx_main_v57 i = ix2 (row i) 0 :=
  funext fun a => by match a with | ⟨0, _⟩ => rfl | ⟨1, _⟩ => rfl

/-- The sum the matrix product reads at an entry, plus a bias row read at the entry's column, is the affine map's
    entry. -/
private theorem affine_core (W : (⟨S128x128, .f32⟩ : BufTy).Contents (Elt Ideal))
    (b : (⟨S1x128, .f32⟩ : BufTy).Contents (Elt Ideal)) (i : S50000x128.Idx) :
    (∑ k : Fin 128, (val_main_v1 (F := Ideal) x0 x2) (lidx_main_v2 i k) * W (ridx_main_v2 i k)) + b (idx_main_v4 i)
      = proj x0 x2 W b i := by
  rw [bidx_eq]
  show _ = (∑ k : Fin 128, (x0 (ix2 (row i) k) * x2 (ix2 (row i) 0)) * W (ix2 k (col i))) + b (ix2 0 (col i))
  congr 1
  refine Finset.sum_congr rfl fun k _ => ?_
  rw [lidx_eq, ridx_eq, val_main_v1_apply, val_main_v0_apply, nidx_eq, Ideal.mulf_def]

/-- The bias laid out as a row by a broadcast along a new leading axis is the same row a reshape to one row gives. -/
theorem bias_row_eq (x : (⟨S128, .f32⟩ : BufTy).Contents (Elt Ideal)) (h : S128.ShapeCasts S1x128) :
    val_main_v3 (F := Ideal) x = shapeCast S1x128 x h := by
  funext j
  rw [val_main_v3_apply]
  refine (shapeCast_apply x h j (idx_main_v3 j) ?_).symm
  rw [Shape.rowMajor_val_one, Shape.rowMajor_val_two]
  have h0 : (j 0).val < 1 := idx2_lt0 j
  show (j 1).val = (j 0).val * 128 + (j 1).val
  omega

/-- The reference's first affine stage is the affine map of the normalised features, its bias laid out as a row. -/
theorem affineA_eq : val_main_v5 (F := Ideal) x0 x2 x5 x6 = proj x0 x2 x5 (val_main_v3 (F := Ideal) x6) := by
  funext i
  rw [val_main_v5_apply, val_main_v2_apply, val_main_v4_apply, Ideal.addf_def]
  exact affine_core x0 x2 x5 (val_main_v3 (F := Ideal) x6) i
/-- The second affine stage. -/
theorem affineB_eq : val_main_v9 (F := Ideal) x0 x2 x7 x8 = proj x0 x2 x7 (val_main_v7 (F := Ideal) x8) := by
  funext i
  rw [val_main_v9_apply, val_main_v6_apply, val_main_v8_apply, Ideal.addf_def]
  exact affine_core x0 x2 x7 (val_main_v7 (F := Ideal) x8) i
/-- The third affine stage. -/
theorem affineD_eq : val_main_v13 (F := Ideal) x0 x2 x9 x10 = proj x0 x2 x9 (val_main_v11 (F := Ideal) x10) := by
  funext i
  rw [val_main_v13_apply, val_main_v10_apply, val_main_v12_apply, Ideal.addf_def]
  exact affine_core x0 x2 x9 (val_main_v11 (F := Ideal) x10) i
/-- The fourth affine stage. -/
theorem affineE_eq : val_main_v17 (F := Ideal) x0 x2 x11 x12 = proj x0 x2 x11 (val_main_v15 (F := Ideal) x12) := by
  funext i
  rw [val_main_v17_apply, val_main_v14_apply, val_main_v16_apply, Ideal.addf_def]
  exact affine_core x0 x2 x11 (val_main_v15 (F := Ideal) x12) i

/-- The reference's gate stage is the gate of its two gathered arrays. -/
theorem gate_eq : val_main_v38 (F := Ideal) x0 x2 x3 x4 x9 x10 x11 x12
    = gate (val_main_v24 (F := Ideal) x0 x2 x3 x9 x10) (val_main_v31 (F := Ideal) x0 x2 x4 x11 x12) := by
  funext i
  rw [val_main_v38_apply, val_main_v37_apply, val_main_cst_3_apply, val_main_v36_apply, val_main_v35_apply,
    val_main_cst_apply, val_main_v34_apply, val_main_v33_apply, val_main_v32_apply]
  generalize val_main_v24 (F := Ideal) x0 x2 x3 x9 x10 = d
  generalize val_main_v31 (F := Ideal) x0 x2 x4 x11 x12 = e
  rw [Ideal.hostDivf_def, Ideal.ofBits_def, Ideal.addf_def, Ideal.hostUnary_exp_def, Ideal.hostNegf_def, Ideal.negf_def,
    Ideal.addf_def, ofBits_one_f32]
  rfl

/-- The reference's message stage is the message of its three gathered arrays. -/
theorem message_eq : val_main_v46 (F := Ideal) x0 x2 x3 x4 x7 x8 x9 x10 x11 x12
    = message (val_main_v24 (F := Ideal) x0 x2 x3 x9 x10) (val_main_v31 (F := Ideal) x0 x2 x4 x11 x12) (val_main_v45 (F := Ideal) x0 x2 x3 x7 x8) := by
  funext i
  rw [val_main_v46_apply, gate_eq, Ideal.mulf_def]
  rfl

/-- The reference's last stage is the combination of the first affine stage with the two scatter-add stages. -/
theorem combine_eq : val_main_v58 (F := Ideal) x0 x2 x3 x4 x5 x6 x7 x8 x9 x10 x11 x12
    = combine (val_main_v5 (F := Ideal) x0 x2 x5 x6) (val_main_v49 (F := Ideal) x0 x2 x3 x4 x7 x8 x9 x10 x11 x12)
        (val_main_v52 (F := Ideal) x0 x2 x3 x4 x9 x10 x11 x12) x2 := by
  funext i
  rw [val_main_v58_apply, val_main_v57_apply, val_main_v56_apply, val_main_v55_apply, val_main_v54_apply,
    val_main_v53_apply, val_main_cst_8_apply, cidx_eq]
  generalize val_main_v5 (F := Ideal) x0 x2 x5 x6 = a
  generalize val_main_v49 (F := Ideal) x0 x2 x3 x4 x7 x8 x9 x10 x11 x12 = num
  generalize val_main_v52 (F := Ideal) x0 x2 x3 x4 x9 x10 x11 x12 = den
  rw [Ideal.mulf_def, Ideal.addf_def, Ideal.hostDivf_def, Ideal.addf_def, Ideal.ofBits_def]
  rfl

end Cert.ReferenceIdeal.Stages

end
-- ==== Proof.Bridge.lean ====
/-
  The kernel program's result is the reference's last stage of the same arguments.

  Followed region by region, the kernel program's result buffer holds the combination of the affine map A with the
  two scatter-adds, along the destination list, of the messages and the gates computed from three gathers: rows of D
  and B along the source list, rows of E along the destination list. The reference computes the same, with two
  differences in the gathers only: the kernel program replaces a row whose wrapped index falls outside the table by a
  constant row, where the reference's gather clamps.
  * Along the source list the precondition says every index is a node number, so no row is replaced.
  * Along the destination list a replaced row belongs to an edge whose destination is not a node number, and the
    scatter-adds drop exactly those edges: the two programs' update arrays agree on every edge that is kept.
-/
import proofs.«422009_j83476984365560_1_alg».proof.Proof.HostWalk
import proofs.«422009_j83476984365560_1_alg».proof.Proof.NodeProjection
import proofs.«422009_j83476984365560_1_alg».proof.Proof.EdgeGate
import proofs.«422009_j83476984365560_1_alg».proof.Proof.NodeCombine
import proofs.«422009_j83476984365560_1_alg».proof.Proof.IndexRange
import proofs.«422009_j83476984365560_1_alg».proof.Proof.ReferenceStages

set_option maxRecDepth 16384

noncomputable section

namespace Cert.Bridge

open Idealize.ShloMosaic Idealize.ShloMosaic.TcCoe Idealize.SL.Sem Idealize.ShloMosaic.ValueIdx
open GatedGraphConv

/-! ## The two programs' records and constant arrays are the same -/

section Records
open Cert.KernelIdeal.Facts₀ Cert.KernelIdeal.Facts

theorem gather_rec_eq : Cert.KernelIdeal.gather_S50000x128_S800000x1_S800000x128_1_0_n_n_0_1_1128
    = Cert.ReferenceIdeal.gather_S50000x128_S800000x1_S800000x128_1_0_n_n_0_1_1128 := rfl
theorem scatter_rec_eq : Cert.KernelIdeal.scatter_S50000x128_S800000x1_S800000x128_1_0_0_1
    = Cert.ReferenceIdeal.scatter_S50000x128_S800000x1_S800000x128_1_0_0_1 := rfl

/-- The wrapped index column is the reference's. -/
theorem wrap_src_eq (x3 : IVec Cert.KernelIdeal.S800000 32) :
    Cert.KernelIdeal.Take.wrapCol x3 = Cert.ReferenceIdeal.Read.val_main_v23 (F := Ideal) x3 := rfl
theorem wrap_dst_eq (x4 : IVec Cert.KernelIdeal.S800000 32) :
    Cert.KernelIdeal.Take.wrapCol x4 = Cert.ReferenceIdeal.Read.val_main_v30 (F := Ideal) x4 := rfl
theorem wrap_src2_eq (x3 : IVec Cert.KernelIdeal.S800000 32) :
    Cert.KernelIdeal.Take.wrapCol x3 = Cert.ReferenceIdeal.Read.val_main_v44 (F := Ideal) x3 := rfl

end Records

/-! ## The kernel program's result, in closed form -/

section Kernel

open Cert.KernelIdeal Cert.KernelIdeal.Gen Cert.KernelIdeal.Take

variable (m : (ℓ : Loc nD τ sig) → Buf (Elt Ideal) ℓ) (ρ : Dev nD → PrngReg) (c : Dev nD)

/-- The launch arrays. -/
abbrev a0 : FVec Ideal S50000x128 .f32 := m ((c : Thread nD τ).loc main_arg0)
abbrev a2 : FVec Ideal S50000x1 .f32 := m ((c : Thread nD τ).loc main_arg2)
abbrev a3 : IVec S800000 32 := m ((c : Thread nD τ).loc main_arg3)
abbrev a4 : IVec S800000 32 := m ((c : Thread nD τ).loc main_arg4)
abbrev a5 : FVec Ideal S128x128 .f32 := m ((c : Thread nD τ).loc main_arg5)
abbrev a6 : FVec Ideal S128 .f32 := m ((c : Thread nD τ).loc main_arg6)
abbrev a7 : FVec Ideal S128x128 .f32 := m ((c : Thread nD τ).loc main_arg7)
abbrev a8 : FVec Ideal S128 .f32 := m ((c : Thread nD τ).loc main_arg8)
abbrev a9 : FVec Ideal S128x128 .f32 := m ((c : Thread nD τ).loc main_arg9)
abbrev a10 : FVec Ideal S128 .f32 := m ((c : Thread nD τ).loc main_arg10)
abbrev a11 : FVec Ideal S128x128 .f32 := m ((c : Thread nD τ).loc main_arg11)
abbrev a12 : FVec Ideal S128 .f32 := m ((c : Thread nD τ).loc main_arg12)

/-- A bias as the one row the first region reads. -/
abbrev biasRow (b : FVec Ideal S128 .f32) : FVec Ideal S1x128 .f32 := shapeCast S1x128 b Facts₀.shapeCasts_S128_S1x128

/-- A scatter-add of an update array onto the nodes along the destination list, from zero. -/
abbrev sumOnto (dst : IVec S800000 32) (u : FVec Ideal S800000x128 .f32) : FVec Ideal S50000x128 .f32 :=
  Host.scatterAdd (F := Ideal) scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 dst) u

/-- The first region's four arrays are the four affine maps of the launch arrays. -/
theorem regionA : (dat0 (V1 m ρ) c).arrAt 10 cfg0.N = proj (a0 m c) (a2 m c) (a5 m c) (biasRow (a6 m c)) := by
  rw [Cert.KernelIdeal.NodeProjection.projA (V1 m ρ) c]
  rw [HostWalk.v1_of_launch m ρ c main_arg0 (by decide) (by decide) (by decide) (by decide),
    HostWalk.v1_of_launch m ρ c main_arg2 (by decide) (by decide) (by decide) (by decide),
    HostWalk.v1_of_launch m ρ c main_arg5 (by decide) (by decide) (by decide) (by decide)]
  exact congrArg (proj _ _ _) (HostWalk.w1_main_v0 m ρ c)
theorem regionB : (dat0 (V1 m ρ) c).arrAt 11 cfg0.N = proj (a0 m c) (a2 m c) (a7 m c) (biasRow (a8 m c)) := by
  rw [Cert.KernelIdeal.NodeProjection.projB (V1 m ρ) c]
  rw [HostWalk.v1_of_launch m ρ c main_arg0 (by decide) (by decide) (by decide) (by decide),
    HostWalk.v1_of_launch m ρ c main_arg2 (by decide) (by decide) (by decide) (by decide),
    HostWalk.v1_of_launch m ρ c main_arg7 (by decide) (by decide) (by decide) (by decide)]
  exact congrArg (proj _ _ _) (HostWalk.w1_main_v1 m ρ c)
theorem regionD : (dat0 (V1 m ρ) c).arrAt 12 cfg0.N = proj (a0 m c) (a2 m c) (a9 m c) (biasRow (a10 m c)) := by
  rw [Cert.KernelIdeal.NodeProjection.projD (V1 m ρ) c]
  rw [HostWalk.v1_of_launch m ρ c main_arg0 (by decide) (by decide) (by decide) (by decide),
    HostWalk.v1_of_launch m ρ c main_arg2 (by decide) (by decide) (by decide) (by decide),
    HostWalk.v1_of_launch m ρ c main_arg9 (by decide) (by decide) (by decide) (by decide)]
  exact congrArg (proj _ _ _) (HostWalk.w1_main_v2 m ρ c)
theorem regionE : (dat0 (V1 m ρ) c).arrAt 13 cfg0.N = proj (a0 m c) (a2 m c) (a11 m c) (biasRow (a12 m c)) := by
  rw [Cert.KernelIdeal.NodeProjection.projE (V1 m ρ) c]
  rw [HostWalk.v1_of_launch m ρ c main_arg0 (by decide) (by decide) (by decide) (by decide),
    HostWalk.v1_of_launch m ρ c main_arg2 (by decide) (by decide) (by decide) (by decide),
    HostWalk.v1_of_launch m ρ c main_arg11 (by decide) (by decide) (by decide) (by decide)]
  exact congrArg (proj _ _ _) (HostWalk.w1_main_v3 m ρ c)

/-- The three gathered arrays the second region reads. -/
abbrev gD : FVec Ideal S800000x128 .f32 := takeFill (proj (a0 m c) (a2 m c) (a9 m c) (biasRow (a10 m c))) (a3 m c)
abbrev gE : FVec Ideal S800000x128 .f32 := takeFill (proj (a0 m c) (a2 m c) (a11 m c) (biasRow (a12 m c))) (a4 m c)
abbrev gB : FVec Ideal S800000x128 .f32 := takeFill (proj (a0 m c) (a2 m c) (a7 m c) (biasRow (a8 m c))) (a3 m c)

/-- The result buffer's last contents as one expression of the launch arrays. -/
theorem result_closed : W8 m ρ c (Proc.devRef .tc main_v15)
    = combine (proj (a0 m c) (a2 m c) (a5 m c) (biasRow (a6 m c)))
        (sumOnto (a4 m c) (message (gD m c) (gE m c) (gB m c)))
        (sumOnto (a4 m c) (gate (gD m c) (gE m c))) (a2 m c) := by
  rw [HostWalk.w8_result, Cert.KernelIdeal.NodeCombine.comb (V7 m ρ) c,
    HostWalk.v7_a, HostWalk.v7_num, HostWalk.v7_den, HostWalk.v7_nrm,
    Cert.KernelIdeal.EdgeGate.gateMsg (V5 m ρ) c, Cert.KernelIdeal.EdgeGate.gateSig (V5 m ρ) c,
    HostWalk.v5_d, HostWalk.v5_e, HostWalk.v5_b, regionA, regionB, regionD, regionE]

end Kernel

/-! ## Meeting the reference's stages -/

section Meet

open Cert.KernelIdeal Cert.KernelIdeal.Gen Cert.KernelIdeal.Take
open Cert.ReferenceIdeal.Read (val_main_v5 val_main_v9 val_main_v13 val_main_v17 val_main_v24 val_main_v31 val_main_v38 val_main_v45 val_main_v46 val_main_v49 val_main_v52 val_main_v58)

variable (m : (ℓ : Loc nD τ sig) → Buf (Elt Ideal) ℓ) (ρ : Dev nD → PrngReg) (c : Dev nD)

/-- Each affine map of the launch arrays is the reference's affine stage of the same arrays. -/
theorem affA : proj (a0 m c) (a2 m c) (a5 m c) (biasRow (a6 m c)) = val_main_v5 (F := Ideal) (a0 m c) (a2 m c) (a5 m c) (a6 m c) :=
  ((Cert.ReferenceIdeal.Stages.affineA_eq (a0 m c) (a2 m c) (a5 m c) (a6 m c)).trans
    (congrArg (proj _ _ _) (Cert.ReferenceIdeal.Stages.bias_row_eq (a6 m c) Facts₀.shapeCasts_S128_S1x128))).symm
theorem affB : proj (a0 m c) (a2 m c) (a7 m c) (biasRow (a8 m c)) = val_main_v9 (F := Ideal) (a0 m c) (a2 m c) (a7 m c) (a8 m c) :=
  ((Cert.ReferenceIdeal.Stages.affineB_eq (a0 m c) (a2 m c) (a7 m c) (a8 m c)).trans
    (congrArg (proj _ _ _) (Cert.ReferenceIdeal.Stages.bias_row_eq (a8 m c) Facts₀.shapeCasts_S128_S1x128))).symm
theorem affD : proj (a0 m c) (a2 m c) (a9 m c) (biasRow (a10 m c)) = val_main_v13 (F := Ideal) (a0 m c) (a2 m c) (a9 m c) (a10 m c) :=
  ((Cert.ReferenceIdeal.Stages.affineD_eq (a0 m c) (a2 m c) (a9 m c) (a10 m c)).trans
    (congrArg (proj _ _ _) (Cert.ReferenceIdeal.Stages.bias_row_eq (a10 m c) Facts₀.shapeCasts_S128_S1x128))).symm
theorem affE : proj (a0 m c) (a2 m c) (a11 m c) (biasRow (a12 m c)) = val_main_v17 (F := Ideal) (a0 m c) (a2 m c) (a11 m c) (a12 m c) :=
  ((Cert.ReferenceIdeal.Stages.affineE_eq (a0 m c) (a2 m c) (a11 m c) (a12 m c)).trans
    (congrArg (proj _ _ _) (Cert.ReferenceIdeal.Stages.bias_row_eq (a12 m c) Facts₀.shapeCasts_S128_S1x128))).symm

/-- Every source index a node number: the gathered rows of D are the reference's. -/
theorem gD_eq (hsrc : ∀ e : Fin 800000, 0 ≤ ((a3 m c) (ix1 e)).toInt ∧ ((a3 m c) (ix1 e)).toInt < 50000) :
    gD m c = val_main_v24 (F := Ideal) (a0 m c) (a2 m c) (a3 m c) (a9 m c) (a10 m c) := by
  show takeFill _ _ = _
  rw [Cert.KernelIdeal.IndexRange.takeFill_all _ _ hsrc, affD]
  rfl
/-- The gathered rows of B likewise. -/
theorem gB_eq (hsrc : ∀ e : Fin 800000, 0 ≤ ((a3 m c) (ix1 e)).toInt ∧ ((a3 m c) (ix1 e)).toInt < 50000) :
    gB m c = val_main_v45 (F := Ideal) (a0 m c) (a2 m c) (a3 m c) (a7 m c) (a8 m c) := by
  show takeFill _ _ = _
  rw [Cert.KernelIdeal.IndexRange.takeFill_all _ _ hsrc, affB]
  rfl
/-- At an edge whose destination is a node number the gathered row of E is the reference's. -/
theorem gE_row (j : S800000x128.Idx)
    (hj : 0 ≤ ((a4 m c) (ix1 (row j))).toInt ∧ ((a4 m c) (ix1 (row j))).toInt < 50000) :
    gE m c j = val_main_v31 (F := Ideal) (a0 m c) (a2 m c) (a4 m c) (a11 m c) (a12 m c) j := by
  show takeFill _ _ j = _
  rw [Cert.KernelIdeal.IndexRange.takeFill_row _ _ j hj, affE]
  rfl

/-- Under the precondition's index range the kernel program's result is the reference's last stage of the same
    launch arrays. -/
theorem result_eq_reference (hsrc : ∀ e : Fin 800000, 0 ≤ ((a3 m c) (ix1 e)).toInt ∧ ((a3 m c) (ix1 e)).toInt < 50000) :
    W8 m ρ c (Proc.devRef .tc main_v15)
      = val_main_v58 (F := Ideal) (a0 m c) (a2 m c) (a3 m c) (a4 m c) (a5 m c) (a6 m c) (a7 m c) (a8 m c) (a9 m c) (a10 m c) (a11 m c) (a12 m c) := by
  rw [result_closed, Cert.ReferenceIdeal.Stages.combine_eq, affA]
  -- the summed messages
  have hnum : sumOnto (a4 m c) (message (gD m c) (gE m c) (gB m c))
      = val_main_v49 (F := Ideal) (a0 m c) (a2 m c) (a3 m c) (a4 m c) (a7 m c) (a8 m c) (a9 m c) (a10 m c) (a11 m c) (a12 m c) := by
    have e49 : val_main_v49 (F := Ideal) (a0 m c) (a2 m c) (a3 m c) (a4 m c) (a7 m c) (a8 m c) (a9 m c) (a10 m c) (a11 m c) (a12 m c)
        = sumOnto (a4 m c) (val_main_v46 (F := Ideal) (a0 m c) (a2 m c) (a3 m c) (a4 m c) (a7 m c) (a8 m c) (a9 m c) (a10 m c) (a11 m c) (a12 m c)) := rfl
    rw [e49, Cert.ReferenceIdeal.Stages.message_eq, gD_eq m c hsrc, gB_eq m c hsrc]
    refine Cert.KernelIdeal.IndexRange.scatterAdd_congr _ _ _ _ (fun j h0 h1 => ?_)
    simp only [message, gate]
    rw [gE_row m c j ⟨h0, h1⟩]
  -- the summed gates
  have hden : sumOnto (a4 m c) (gate (gD m c) (gE m c))
      = val_main_v52 (F := Ideal) (a0 m c) (a2 m c) (a3 m c) (a4 m c) (a9 m c) (a10 m c) (a11 m c) (a12 m c) := by
    have e52 : val_main_v52 (F := Ideal) (a0 m c) (a2 m c) (a3 m c) (a4 m c) (a9 m c) (a10 m c) (a11 m c) (a12 m c)
        = sumOnto (a4 m c) (val_main_v38 (F := Ideal) (a0 m c) (a2 m c) (a3 m c) (a4 m c) (a9 m c) (a10 m c) (a11 m c) (a12 m c)) := rfl
    rw [e52, Cert.ReferenceIdeal.Stages.gate_eq, gD_eq m c hsrc]
    refine Cert.KernelIdeal.IndexRange.scatterAdd_congr _ _ _ _ (fun j h0 h1 => ?_)
    simp only [gate]
    rw [gE_row m c j ⟨h0, h1⟩]
  rw [hnum, hden]

end Meet

end Cert.Bridge

end
-- ==== Proof.lean ====
/-
  A gated graph convolution over 50000 nodes and 800000 edges, as three tiled kernels with whole-array gathers and
  scatter-adds between them, against the same computation written with whole-array operations only.

  Both programs compute, for node features h, a per-node factor norm, index lists src and dst and four affine maps
  A, B, D, E of the rows h(n, ·) · norm(n):
      σ(e, ·)   = logistic(D(src e, ·) + E(dst e, ·)),
      num(n, ·) = Σ over the edges e arriving at n of σ(e, ·) · B(src e, ·),   den(n, ·) = Σ of σ(e, ·),
      out(n, ·) = (A(n, ·) + num(n, ·) / (den(n, ·) + ε)) · norm(n).
  On the extended reals the two differ in one place: the kernel program's gathers replace a row whose index falls
  outside the node table by a constant row, the reference's gathers clamp the index. The precondition says every
  source index is a node number, so the gathers along src agree; along dst a replaced row belongs to an edge that both
  scatter-adds drop, so it never reaches a sum. Everything else is the same arithmetic at every entry: the tiled
  kernels compute block by block what the whole-array operations compute at once (Proof/NodeProjection.lean,
  EdgeGate.lean, NodeCombine.lean for the kernel side, Proof/ReferenceStages.lean for the reference side, joined in
  Proof/Bridge.lean).
-/
import proofs.«422009_j83476984365560_1_alg».proof.Defs
import proofs.«422009_j83476984365560_1_alg».proof.Proof.Gen.Kernel
import proofs.«422009_j83476984365560_1_alg».proof.Proof.Gen.Kernel.Skeleton
import proofs.«422009_j83476984365560_1_alg».proof.Proof.Gen.Kernel.Launch
import proofs.«422009_j83476984365560_1_alg».proof.Proof.Gen.Kernel.Points
import proofs.«422009_j83476984365560_1_alg».proof.Proof.Gen.Kernel.Frame
import proofs.«422009_j83476984365560_1_alg».proof.Proof.Gen.KernelIdeal
import proofs.«422009_j83476984365560_1_alg».proof.Proof.Gen.KernelIdeal.Skeleton
import proofs.«422009_j83476984365560_1_alg».proof.Proof.Gen.KernelIdeal.Launch
import proofs.«422009_j83476984365560_1_alg».proof.Proof.Gen.KernelIdeal.Points
import proofs.«422009_j83476984365560_1_alg».proof.Proof.Gen.KernelIdeal.Frame
import proofs.«422009_j83476984365560_1_alg».proof.Proof.Gen.ReferenceIdeal
import proofs.«422009_j83476984365560_1_alg».proof.Proof.Gen.ReferenceIdeal.Run
import proofs.«422009_j83476984365560_1_alg».proof.Proof.Gen.ReferenceIdeal.Read
import proofs.«422009_j83476984365560_1_alg».proof.Proof.Gen.Pre_finite_inputs
import proofs.«422009_j83476984365560_1_alg».proof.Proof.KernelRun
import proofs.«422009_j83476984365560_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs to the end and leaves its arguments alone. -/
theorem frame_kernel : Cert.frame_Kernel := fun m ρ _ => Cert.Kernel.Gen.frame m ρ
/-- So does its idealization. -/
theorem frame_kernel_ideal : Cert.frame_KernelIdeal := fun m ρ _ => Cert.KernelIdeal.Gen.frame m ρ
/-- So does the reference: its run, with the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, under the precondition, both programs end with the same result array:
    the reference's last stage of the kernel program's launch arrays. The second result is the edge-feature argument,
    which neither program changes. -/
theorem algebraic : Cert.algebraic_KernelIdeal_ReferenceIdeal := by
  intro m ρ m' ρ' hpre hagree
  refine ⟨fun c => Cert.ReferenceIdeal.Read.val_main_v58 (F := Ideal) (Cert.Bridge.a0 m c) (Cert.Bridge.a2 m c)
      (Cert.Bridge.a3 m c) (Cert.Bridge.a4 m c) (Cert.Bridge.a5 m c) (Cert.Bridge.a6 m c) (Cert.Bridge.a7 m c)
      (Cert.Bridge.a8 m c) (Cert.Bridge.a9 m c) (Cert.Bridge.a10 m c) (Cert.Bridge.a11 m c) (Cert.Bridge.a12 m c),
    fun c => m ((c.tc : Thread Cert.KernelIdeal.nD Cert.KernelIdeal.τ).loc Cert.KernelIdeal.main_arg1), ?_, ?_⟩
  · -- the kernel program: its result buffer ends at the last region's contents, which the bridge reads
    refine (θ_run Cert.KernelIdeal.defs _ _).mono (fun r h c => ?_) (Cert.KernelIdeal.Run.run_named (F := Ideal) m ρ)
    exact ⟨(h c).1.trans (Cert.Bridge.result_eq_reference m ρ c
        (Cert.KernelIdeal.IndexRange.src_range _ _ _ _ _ _ _ _ _ _ _ _ _ (hpre c))), (h c).2.2.1, (h c).2⟩
  · -- the reference: its run's term is its last stage, at arguments that agree with the kernel program's
    refine (θ_run Cert.ReferenceIdeal.defs _ _).mono (fun r h c => ?_) (Cert.ReferenceIdeal.Value.run (F := Ideal) m' ρ')
    obtain ⟨e0, e1, e2, e3, e4, e5, e6, e7, e8, e9, e10, e11, e12⟩ := hagree c
    refine ⟨(h c).1.trans ?_, (h c).2.1.trans e1, (h c).2.2⟩
    rw [Cert.ReferenceIdeal.Read.val_main_v58_eq, e0, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
